-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x784 : Shape := ⟨3, ![1024, 128, 784]⟩
abbrev S256x784 : Shape := ⟨2, ![256, 784]⟩
abbrev S256 : Shape := ⟨1, ![256]⟩
abbrev S128x256x2 : Shape := ⟨3, ![128, 256, 2]⟩
abbrev S_ : Shape := ⟨0, ![]⟩

class Facts : Prop where
  bcast_S_S1024x128x784 : S_.BroadcastsInDim S1024x128x784 (![] : Fin 0 → Fin S1024x128x784.rank)
  reducesTo_S1024x128x784_S_d0_1_2 : S1024x128x784.ReducesTo [0, 1, 2] S_
  h_S_ : 0 < S_.numel
  bcast_S_S256x784 : S_.BroadcastsInDim S256x784 (![] : Fin 0 → Fin S256x784.rank)
  reducesTo_S256x784_S_d0_1 : S256x784.ReducesTo [0, 1] S_
  bcast_S_S256 : S_.BroadcastsInDim S256 (![] : Fin 0 → Fin S256.rank)
  reducesTo_S256_S_d0 : S256.ReducesTo [0] S_
  bcast_S_S128x256x2 : S_.BroadcastsInDim S128x256x2 (![] : Fin 0 → Fin S128x256x2.rank)
  reducesTo_S128x256x2_S_d0_1_2 : S128x256x2.ReducesTo [0, 1, 2] S_

variable [Facts]

def fn_part1 {F : FTy → Type} [FloatOps F] (main_v13 : IVec S_ 1) (main_v16 : IVec S128x256x2 1) : IVec S_ 1 :=
  let main_c_5 : IVec S_ 1 := constantI S_ 1 1#1
  let main_v17 : IVec S_ 1 := (fun x v => Host.reduce IntOp.andi x v reducesTo_S128x256x2_S_d0_1_2 h_S_) main_v16 main_c_5
  let main_v18 : IVec S_ 1 := andi main_v13 main_v17
  main_v18

def fn {F : FTy → Type} [FloatOps F] (main_arg0 : FVec F S1024x128x784 .f32) (main_arg1 : FVec F S256x784 .f32) (main_arg2 : FVec F S256 .f32) (main_arg3 : FVec F S128x256x2 .f32) : IVec S_ 1 :=
  let main_v0 : FVec F S1024x128x784 .f32 := Host.absf main_arg0
  let main_cst : FVec F S_ .f32 := constant S_ .f32 0x7F800000#32
  let main_v1 : FVec F S1024x128x784 .f32 := broadcastInDim S1024x128x784 ![] bcast_S_S1024x128x784 main_cst
  let main_v2 : IVec S1024x128x784 1 := cmpf .olt main_v0 main_v1
  let main_c : IVec S_ 1 := constantI S_ 1 1#1
  let main_v3 : IVec S_ 1 := (fun x v => Host.reduce IntOp.andi x v reducesTo_S1024x128x784_S_d0_1_2 h_S_) main_v2 main_c
  let main_v4 : FVec F S256x784 .f32 := Host.absf main_arg1
  let main_cst_0 : FVec F S_ .f32 := constant S_ .f32 0x7F800000#32
  let main_v5 : FVec F S256x784 .f32 := broadcastInDim S256x784 ![] bcast_S_S256x784 main_cst_0
  let main_v6 : IVec S256x784 1 := cmpf .olt main_v4 main_v5
  let main_c_1 : IVec S_ 1 := constantI S_ 1 1#1
  let main_v7 : IVec S_ 1 := (fun x v => Host.reduce IntOp.andi x v reducesTo_S256x784_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256x2 .f32 := Host.absf main_arg3
  let main_cst_4 : FVec F S_ .f32 := constant S_ .f32 0x7F800000#32
  let main_v15 : FVec F S128x256x2 .f32 := broadcastInDim S128x256x2 ![] bcast_S_S128x256x2 main_cst_4
  let main_v16 : IVec S128x256x2 1 := cmpf .olt main_v14 main_v15
  fn_part1 (F := F) main_v13 main_v16
-- ==== Kernel.lean ====
abbrev S1024x128x784 : Shape := ⟨3, ![1024, 128, 784]⟩
abbrev S256x784 : Shape := ⟨2, ![256, 784]⟩
abbrev S256 : Shape := ⟨1, ![256]⟩
abbrev S128x256x2 : Shape := ⟨3, ![128, 256, 2]⟩
abbrev S784x256 : Shape := ⟨2, ![784, 256]⟩
abbrev S1x256 : Shape := ⟨2, ![1, 256]⟩
abbrev S128x256x1 : Shape := ⟨3, ![128, 256, 1]⟩
abbrev S128x256 : Shape := ⟨2, ![128, 256]⟩
abbrev S1024x128x256 : Shape := ⟨3, ![1024, 128, 256]⟩
abbrev S16x128x784 : Shape := ⟨3, ![16, 128, 784]⟩
abbrev S16x128x256 : Shape := ⟨3, ![16, 128, 256]⟩
abbrev S2048x784 : Shape := ⟨2, ![2048, 784]⟩
abbrev S2048x256 : Shape := ⟨2, ![2048, 256]⟩
abbrev S1x128x256 : Shape := ⟨3, ![1, 128, 256]⟩
abbrev S8x128x256 : Shape := ⟨3, ![8, 128, 256]⟩

abbrev nBuf : Space → Nat
  | .hbm => 14
  | .vmem => 9
  | .smem => 0
  | _ => 0

abbrev bufTy : (tb : Table) → Fin (tcTables nBuf tb) → BufTy
  | .hbm, ⟨0, _⟩ => ⟨S1024x128x784, .f32⟩
  | .hbm, ⟨1, _⟩ => ⟨S256x784, .f32⟩
  | .hbm, ⟨2, _⟩ => ⟨S256, .f32⟩
  | .hbm, ⟨3, _⟩ => ⟨S128x256x2, .f32⟩
  | .hbm, ⟨4, _⟩ => ⟨S784x256, .f32⟩
  | .hbm, ⟨5, _⟩ => ⟨S784x256, .bf16⟩
  | .hbm, ⟨6, _⟩ => ⟨S1x256, .f32⟩
  | .hbm, ⟨7, _⟩ => ⟨S128x256x1, .f32⟩
  | .hbm, ⟨8, _⟩ => ⟨S128x256, .f32⟩
  | .hbm, ⟨9, _⟩ => ⟨S128x256x1, .f32⟩
  | .hbm, ⟨10, _⟩ => ⟨S128x256, .f32⟩
  | .hbm, ⟨11, _⟩ => ⟨S128x256, .f32⟩
  | .hbm, ⟨12, _⟩ => ⟨S1024x128x256, .f32⟩
  | .hbm, ⟨13, _⟩ => ⟨S1024x128x256, .f32⟩
  | .local _ .vmem, ⟨0, _⟩ => ⟨S16x128x784, .f32⟩
  | .local _ .vmem, ⟨1, _⟩ => ⟨S16x128x784, .f32⟩
  | .local _ .vmem, ⟨2, _⟩ => ⟨S784x256, .bf16⟩
  | .local _ .vmem, ⟨3, _⟩ => ⟨S1x256, .f32⟩
  | .local _ .vmem, ⟨4, _⟩ => ⟨S128x256, .f32⟩
  | .local _ .vmem, ⟨5, _⟩ => ⟨S16x128x256, .f32⟩
  | .local _ .vmem, ⟨6, _⟩ => ⟨S16x128x256, .f32⟩
  | .local _ .vmem, ⟨7, _⟩ => ⟨S16x128x256, .f32⟩
  | .local _ .vmem, ⟨8, _⟩ => ⟨S16x128x256, .f32⟩
  | _, _ => ⟨S1024x128x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x784_S784x256_1_0 : S256x784.Transposes [1, 0] S784x256
  bitsLt_bf16_f32 : FTy.bits .bf16 < FTy.bits .f32
  shapeCasts_S256_S1x256 : S256.ShapeCasts S1x256
  slices_S128x256x2_S128x256x1_0_0_1 : S128x256x2.Slices ![0, 0, 1] S128x256x1
  shapeCasts_S128x256x1_S128x256 : S128x256x1.ShapeCasts S128x256
  slices_S128x256x2_S128x256x1_0_0_0 : S128x256x2.Slices ![0, 0, 0] S128x256x1
  inb_S16x128x784_S16x128x784_0_0_0 : ∀ a, (![0, 0, 0] : Fin 3 → Nat) a + S16x128x784.size a ≤ S16x128x784.size a
  h_S16x128x784 : 0 < S16x128x784.numel
  shapeCasts_S16x128x784_S2048x784 : S16x128x784.ShapeCasts S2048x784
  inb_S784x256_S784x256_0_0 : ∀ a, (![0, 0] : Fin 2 → Nat) a + S784x256.size a ≤ S784x256.size a
  h_S784x256 : 0 < S784x256.numel
  shapeCasts_S784x256_S784x256 : S784x256.ShapeCasts S784x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S16x128x256 : S2048x256.ShapeCasts S16x128x256
  inb_S16x128x256_S16x128x256_0_0_0 : ∀ a, (![0, 0, 0] : Fin 3 → Nat) a + S16x128x256.size a ≤ S16x128x256.size a
  h_S16x128x256 : 0 < S16x128x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x256_S1x128x256 : S128x256.ShapeCasts S1x128x256
  shapeCasts_S1x128x256_S1x128x256 : S1x128x256.ShapeCasts S1x128x256
  broadcasts_S1x128x256_S8x128x256 : S1x128x256.Broadcasts S8x128x256
  slices_S16x128x256_o0_0_0_S8x128x256 : S16x128x256.Slices ![0, 0, 0] S8x128x256
  inb_S16x128x256_S8x128x256_0_0_0 : ∀ a, (![0, 0, 0] : Fin 3 → Nat) a + S8x128x256.size a ≤ S16x128x256.size a
  h_S8x128x256 : 0 < S8x128x256.numel
  slices_S16x128x256_o8_0_0_S8x128x256 : S16x128x256.Slices ![8, 0, 0] S8x128x256
  inb_S16x128x256_S8x128x256_8_0_0 : ∀ a, (![8, 0, 0] : Fin 3 → Nat) a + S8x128x256.size a ≤ S16x128x256.size a
  dot_S2048x784_S784x256_S2048x256_1_0_0_1_n_n_wf : DotDims.WF S2048x784 S784x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x784.size a ≤ S1024x128x784.size a
  hwx0_0 : ∀ i : grid0.Coords, EltTy.bits .f32 = 32 ∨ (Rect.block (s := S1024x128x784) S16x128x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x256.size a ≤ S784x256.size a
  hwx0_1 : ∀ i : grid0.Coords, EltTy.bits .bf16 = 32 ∨ (Rect.block (s := S784x256) S784x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x256.size a ≤ S1024x128x256.size a
  hwx0_4 : ∀ i : grid0.Coords, EltTy.bits .f32 = 32 ∨ (Rect.block (s := S1024x128x256) S16x128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128x256.size a ≤ S1024x128x256.size a
  hwx0_5 : ∀ i : grid0.Coords, EltTy.bits .f32 = 32 ∨ (Rect.block (s := S1024x128x256) S16x128x256.size (cc0_transform_5 i) (hinb0_5 i)).WholeWords (EltTy.packing .f32)

variable [Facts₀]

def dot_S2048x784_S784x256_S2048x256_1_0_0_1_n_n : DotDims S2048x784 S784x256 S2048x256 where
  lhsContracting := [1]
  rhsContracting := [0]
  lhsNonContracting := [0]
  rhsNonContracting := [1]
  lhsBatch := []
  rhsBatch := []
  wf := dot_S2048x784_S784x256_S2048x256_1_0_0_1_n_n_wf

abbrev win0_0 : Pipeline.Window sig grid0 :=
  Pipeline.Window.ofSpec (Memref.whole main_arg0) S16x128x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S16x128x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S16x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x128x784 : Shape := ⟨3, ![1024, 128, 784]⟩
abbrev S256x784 : Shape := ⟨2, ![256, 784]⟩
abbrev S256 : Shape := ⟨1, ![256]⟩
abbrev S128x256x2 : Shape := ⟨3, ![128, 256, 2]⟩
abbrev S1024x128x256 : Shape := ⟨3, ![1024, 128, 256]⟩
abbrev S1x1x256 : Shape := ⟨3, ![1, 1, 256]⟩
abbrev S_ : Shape := ⟨0, ![]⟩
abbrev S1024x128x256x1 : Shape := ⟨4, ![1024, 128, 256, 1]⟩
abbrev S1x128x256x2 : Shape := ⟨4, ![1, 128, 256, 2]⟩
abbrev S1024x128x256x2 : Shape := ⟨4, ![1024, 128, 256, 2]⟩

abbrev nBuf : Space → Nat
  | .hbm => 41
  | .vmem => 0
  | .smem => 0
  | _ => 0

abbrev bufTy : (tb : Table) → Fin (tcTables nBuf tb) → BufTy
  | .hbm, ⟨0, _⟩ => ⟨S1024x128x784, .f32⟩
  | .hbm, ⟨1, _⟩ => ⟨S256x784, .f32⟩
  | .hbm, ⟨2, _⟩ => ⟨S256, .f32⟩
  | .hbm, ⟨3, _⟩ => ⟨S128x256x2, .f32⟩
  | .hbm, ⟨4, _⟩ => ⟨S1024x128x256, .f32⟩
  | .hbm, ⟨5, _⟩ => ⟨S1x1x256, .f32⟩
  | .hbm, ⟨6, _⟩ => ⟨S1024x128x256, .f32⟩
  | .hbm, ⟨7, _⟩ => ⟨S1024x128x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x128x256, .f32⟩
  | .hbm, ⟨12, _⟩ => ⟨S1024x128x256, .f32⟩
  | .hbm, ⟨13, _⟩ => ⟨S_, .f32⟩
  | .hbm, ⟨14, _⟩ => ⟨S1024x128x256, .f32⟩
  | .hbm, ⟨15, _⟩ => ⟨S1024x128x256, .f32⟩
  | .hbm, ⟨16, _⟩ => ⟨S1024x128x256x1, .f32⟩
  | .hbm, ⟨17, _⟩ => ⟨S1x128x256x2, .f32⟩
  | .hbm, ⟨18, _⟩ => ⟨S1024x128x256x2, .f32⟩
  | .hbm, ⟨19, _⟩ => ⟨S1024x128x256x2, .f32⟩
  | .hbm, ⟨20, _⟩ => ⟨S1024x128x256x2, .f32⟩
  | .hbm, ⟨21, _⟩ => ⟨S_, .f32⟩
  | .hbm, ⟨22, _⟩ => ⟨S1024x128x256, .f32⟩
  | .hbm, ⟨23, _⟩ => ⟨S_, .f32⟩
  | .hbm, ⟨24, _⟩ => ⟨S1024x128x256, .f32⟩
  | .hbm, ⟨25, _⟩ => ⟨S1024x128x256, .f32⟩
  | .hbm, ⟨26, _⟩ => ⟨S1024x128x256x1, .f32⟩
  | .hbm, ⟨27, _⟩ => ⟨S1024x128x256x2, .f32⟩
  | .hbm, ⟨28, _⟩ => ⟨S1024x128x256x2, .f32⟩
  | .hbm, ⟨29, _⟩ => ⟨S1024x128x256x2, .f32⟩
  | .hbm, ⟨30, _⟩ => ⟨S_, .f32⟩
  | .hbm, ⟨31, _⟩ => ⟨S1024x128x256, .f32⟩
  | .hbm, ⟨32, _⟩ => ⟨S1024x128x256x1, .f32⟩
  | .hbm, ⟨33, _⟩ => ⟨S1024x128x256x2, .f32⟩
  | .hbm, ⟨34, _⟩ => ⟨S1024x128x256x2, .f32⟩
  | .hbm, ⟨35, _⟩ => ⟨S1024x128x256x2, .f32⟩
  | .hbm, ⟨36, _⟩ => ⟨S_, .f32⟩
  | .hbm, ⟨37, _⟩ => ⟨S1024x128x256x2, .f32⟩
  | .hbm, ⟨38, _⟩ => ⟨S1024x128x256x2, .f32⟩
  | .hbm, ⟨39, _⟩ => ⟨S_, .f32⟩
  | .hbm, ⟨40, _⟩ => ⟨S1024x128x256, .f32⟩
  | _, _ => ⟨S1024x128x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S1024x128x256_0_1_2 : S1x1x256.BroadcastsInDim S1024x128x256 (![0, 1, 2] : Fin 3 → Fin S1024x128x256.rank)
  bcast_S_S1024x128x256 : S_.BroadcastsInDim S1024x128x256 (![] : Fin 0 → Fin S1024x128x256.rank)
  bcast_S1024x128x256_S1024x128x256x1_0_1_2 : S1024x128x256.BroadcastsInDim S1024x128x256x1 (![0, 1, 2] : Fin 3 → Fin S1024x128x256x1.rank)
  bcast_S128x256x2_S1x128x256x2_1_2_3 : S128x256x2.BroadcastsInDim S1x128x256x2 (![1, 2, 3] : Fin 3 → Fin S1x128x256x2.rank)
  bcast_S1024x128x256x1_S1024x128x256x2_0_1_2_3 : S1024x128x256x1.BroadcastsInDim S1024x128x256x2 (![0, 1, 2, 3] : Fin 4 → Fin S1024x128x256x2.rank)
  bcast_S1x128x256x2_S1024x128x256x2_0_1_2_3 : S1x128x256x2.BroadcastsInDim S1024x128x256x2 (![0, 1, 2, 3] : Fin 4 → Fin S1024x128x256x2.rank)
  reducesTo_S1024x128x256x2_S1024x128x256_d3 : S1024x128x256x2.ReducesTo [3] S1024x128x256
  h_S_ : 0 < S_.numel
  bcast_S_S1024x128x256x2 : S_.BroadcastsInDim S1024x128x256x2 (![] : Fin 0 → Fin S1024x128x256x2.rank)
  dot_S1024x128x784_S256x784_S1024x128x256_2_1_01_0_n_n_wf : DotDims.WF S1024x128x784 S256x784 S1024x128x256 [2] [1] [0, 1] [0] [] []

variable [Facts₀]

def dot_S1024x128x784_S256x784_S1024x128x256_2_1_01_0_n_n : DotDims S1024x128x784 S256x784 S1024x128x256 where
  lhsContracting := [2]
  rhsContracting := [1]
  lhsNonContracting := [0, 1]
  rhsNonContracting := [0]
  lhsBatch := []
  rhsBatch := []
  wf := dot_S1024x128x784_S256x784_S1024x128x256_2_1_01_0_n_n_wf

class Facts : Prop extends Facts₀ where

variable [Facts]
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

/-!
# The real part of the extended reals, as the ideal float values

The ideal float values are the extended reals `[-∞, +∞]`. A value is *real* when it is neither
infinity. This file collects: closure of the real values under the arithmetic a normalisation layer
uses (sum, difference, product, maximum, finite sums, quotient by a nonzero real, reciprocal square
root of a positive real, exponential); the vanishing of the low-order partial products of a product
computed in three passes; the identity between the one-pass variance `E[x²] − E[x]²` clamped at
zero and the two-pass variance `E[(x − E x)²]` of real data; and the real numbers a few `f32`
bit patterns denote.
-/

open Idealize.ShloMosaic

namespace Cert.Lib

/-- An extended real is *real* when it is the image of a real number: neither `+∞` nor `-∞`. -/
def IsReal (x : EReal) : Prop := ∃ r : ℝ, x = (r : EReal)

/-- The image of a real number is real. -/
theorem IsReal.coe (r : ℝ) : IsReal (r : EReal) := ⟨r, rfl⟩

/-- Zero is real. -/
theorem IsReal.zero : IsReal (0 : EReal) := ⟨0, rfl⟩

/-- One is real. -/
theorem IsReal.one : IsReal (1 : EReal) := ⟨1, rfl⟩

/-- A real value is not `+∞`. -/
theorem IsReal.ne_top {x : EReal} (hx : IsReal x) : x ≠ ⊤ := by
  obtain ⟨a, rfl⟩ := hx; exact EReal.coe_ne_top a

/-- A real value is not `-∞`. -/
theorem IsReal.ne_bot {x : EReal} (hx : IsReal x) : x ≠ ⊥ := by
  obtain ⟨a, rfl⟩ := hx; exact EReal.coe_ne_bot a

/-- A real value is the image of its real part. -/
theorem IsReal.coe_toReal {x : EReal} (hx : IsReal x) : ((x.toReal : ℝ) : EReal) = x :=
  EReal.coe_toReal hx.ne_top hx.ne_bot

/-- The sum of two real values is real. -/
protected theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real values is real. -/
protected theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real values is real. -/
protected theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The opposite of a real value is real. -/
protected theorem IsReal.neg {x : EReal} (hx : IsReal x) : IsReal (-x) := by
  obtain ⟨a, rfl⟩ := hx; exact ⟨-a, (EReal.coe_neg a).symm⟩

/-- The inclusion of the reals in the extended reals commutes with the maximum. -/
theorem coe_max (a b : ℝ) : ((Max.max a b : ℝ) : EReal) = Max.max (a : EReal) (b : EReal) :=
  (EReal.coe_strictMono.monotone).map_max

/-- The maximum of two real values is real. -/
protected theorem IsReal.max {x y : EReal} (hx : IsReal x) (hy : IsReal y) : IsReal (Max.max x y) := by
  obtain ⟨a, rfl⟩ := hx; obtain ⟨b, rfl⟩ := hy; exact ⟨Max.max a b, (coe_max a b).symm⟩

/-- The inclusion of the reals in the extended reals commutes with finite sums. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- A finite sum of real values is real. -/
protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

/-- The quotient of a real value by a nonzero real value is real. -/
protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

/-- The reciprocal square root of a positive real value is real. -/
protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

/-- The exponential of a real value is real. -/
protected theorem IsReal.exp {x : EReal} (hx : IsReal x) : IsReal (Ideal.exp x) := by
  obtain ⟨a, rfl⟩ := hx; exact ⟨Real.exp a, rfl⟩

/-- The exponential of a real value is positive. -/
theorem exp_pos_of_isReal {x : EReal} (hx : IsReal x) : 0 < Ideal.exp x := by
  obtain ⟨a, rfl⟩ := hx
  rw [Ideal.exp_coe]
  exact EReal.coe_pos.mpr (Real.exp_pos a)

/-- An extended real whose absolute value `max x (-x)` is below `+∞` is real. -/
theorem isReal_of_abs_lt_top {x : EReal} (h : Max.max x (-x) < ⊤) : IsReal x := by
  induction x with
  | bot => simp at h
  | coe r => exact ⟨r, rfl⟩
  | top => simp at h

/-- On a real value, `x - x = 0` (false at the infinities, where the difference is `-∞`). -/
theorem sub_self_of_isReal {x : EReal} (h : IsReal x) : x - x = 0 := by
  obtain ⟨a, rfl⟩ := h
  rw [← EReal.coe_sub, sub_self, EReal.coe_zero]

/-- The square of a real value is nonnegative. -/
theorem mul_self_nonneg_of_isReal {x : EReal} (h : IsReal x) : 0 ≤ x * x := by
  obtain ⟨a, rfl⟩ := h
  rw [← EReal.coe_mul]
  exact EReal.coe_nonneg.mpr (mul_self_nonneg a)

/-- A finite sum of squares of real values is nonnegative. -/
theorem sum_mul_self_nonneg {ι : Type*} (s : Finset ι) (f : ι → EReal) (h : ∀ i ∈ s, IsReal (f i)) :
    0 ≤ ∑ i ∈ s, f i * f i :=
  Finset.sum_nonneg fun i hi => mul_self_nonneg_of_isReal (h i hi)

/-- A nonnegative value plus a positive one is positive. -/
theorem pos_add_of_nonneg {v e : EReal} (hv : 0 ≤ v) (he : 0 < e) : 0 < v + e :=
  he.trans_le (le_add_of_nonneg_left hv)

/-- A product `x · W` computed as three partial products — `x · w`, `x · wl` and `(x − x) · w`, each onto a
    zero accumulator — where the low part `wl` of the weights is zero and the data are real: the second and
    third sums vanish and the total is the plain sum of products. -/
theorem dot3 {κ : Type} [Fintype κ] (x w wl : κ → EReal) (hx : ∀ k, IsReal (x k)) (hwl : ∀ k, wl k = 0) :
    ((0 + ∑ k, x k * w k) + (0 + ∑ k, x k * wl k)) + (0 + ∑ k, (x k - x k) * w k) = ∑ k, x k * w k := by
  have h2 : ∑ k, x k * wl k = 0 := Finset.sum_eq_zero fun k _ => by rw [hwl k, mul_zero]
  have h3 : ∑ k, (x k - x k) * w k = 0 :=
    Finset.sum_eq_zero fun k _ => by rw [sub_self_of_isReal (hx k), zero_mul]
  rw [h2, h3, zero_add, zero_add, add_zero, add_zero]

/-- The mean of real data, `(0 + ∑ a) / N` for a nonzero real `N`, is the real number `(∑ a) · (1/N)`. -/
theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

/-- In the reals: the two-pass variance `(∑ (a − m)²) / N` about the mean `m = (∑ a) / N` of `N` numbers
    is the one-pass form `(∑ a²) / N − m²`. -/
theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

/-- The two-pass variance of real data is a real number: the image of `(∑ (a − m)²) · (1/N)`. -/
theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

/-- The one-pass variance `E[x²] − E[x]²`, clamped below at `0`, IS the two-pass variance `E[(x − E x)²]`
    of real data `x` over `N = card ι > 0` points: both are the same real number, and a mean of squares is
    nonnegative, so the clamp is the identity. -/
theorem variance_eq {ι : Type} [Fintype ι] (x : ι → EReal) (hx : ∀ i, IsReal (x i)) (N : ℝ)
    (hN : (Fintype.card ι : ℝ) = N) (hpos : 0 < N) :
    Max.max (Ideal.div (0 + ∑ i, x i * x i) (N : EReal)
        - Ideal.div (0 + ∑ i, x i) (N : EReal) * Ideal.div (0 + ∑ i, x i) (N : EReal)) 0
      = Ideal.div (0 + ∑ i, (x i - Ideal.div (0 + ∑ j, x j) (N : EReal))
          * (x i - Ideal.div (0 + ∑ j, x j) (N : EReal))) (N : EReal) := by
  choose a ha using hx
  have hN0 : N ≠ 0 := hpos.ne'
  simp only [ha]
  rw [twoPass_coe a hN0, div_sum_coe Finset.univ a hN0]
  simp only [← EReal.coe_mul]
  rw [div_sum_coe Finset.univ (fun i => a i * a i) hN0, ← EReal.coe_sub,
    ← EReal.coe_zero, ← coe_max, ← real_variance a N hN hpos]
  congr 1
  exact max_eq_left (mul_nonneg (Finset.sum_nonneg fun i _ => mul_self_nonneg _) (by positivity))

/-- The mean `(0 + ∑ x) / N` of real data over a nonzero real `N` is real. -/
theorem mean_isReal {ι : Type} [Fintype ι] (x : ι → EReal) (hx : ∀ i, IsReal (x i)) (N : ℝ)
    (hN : (Fintype.card ι : ℝ) = N) (hpos : 0 < N) : IsReal (Ideal.div (0 + ∑ i, x i) (N : EReal)) := by
  choose a ha using hx
  simp only [ha]
  rw [div_sum_coe Finset.univ a hpos.ne']
  exact IsReal.coe _

/-- The two-pass variance of real data over `N > 0` points is real. -/
theorem variance_isReal {ι : Type} [Fintype ι] (x : ι → EReal) (hx : ∀ i, IsReal (x i)) (N : ℝ)
    (hN : (Fintype.card ι : ℝ) = N) (hpos : 0 < N) :
    IsReal (Ideal.div (0 + ∑ i, (x i - Ideal.div (0 + ∑ j, x j) (N : EReal))
      * (x i - Ideal.div (0 + ∑ j, x j) (N : EReal))) (N : EReal)) := by
  choose a ha using hx
  simp only [ha]
  rw [twoPass_coe a hpos.ne']
  exact IsReal.coe _

/-- The two-pass variance of real data over `N > 0` points is nonnegative. -/
theorem variance_nonneg {ι : Type} [Fintype ι] (x : ι → EReal) (hx : ∀ i, IsReal (x i)) (N : ℝ)
    (hN : (Fintype.card ι : ℝ) = N) (hpos : 0 < N) :
    0 ≤ Ideal.div (0 + ∑ i, (x i - Ideal.div (0 + ∑ j, x j) (N : EReal))
      * (x i - Ideal.div (0 + ∑ j, x j) (N : EReal))) (N : EReal) := by
  choose a ha using hx
  simp only [ha]
  rw [twoPass_coe a hpos.ne']
  exact EReal.coe_nonneg.mpr
    (mul_nonneg (Finset.sum_nonneg fun i _ => mul_self_nonneg _) (by positivity))

/-! ### The real numbers a few `f32` patterns denote -/

/-- The `f32` pattern `0x3F800000` denotes `1`. -/
theorem ofBits_f32_one : Ideal.ofBits .f32 0x3F800000#32 = 1 := by
  simp [Ideal.ofBits, Ideal.ieee, -EReal.coe_mul]; norm_num

/-- The `f32` pattern `0x48742400` denotes `250000`. -/
theorem ofBits_f32_250000 : Ideal.ofBits .f32 0x48742400#32 = ((250000 : ℝ) : EReal) := by
  simp [Ideal.ofBits, Ideal.ieee, -EReal.coe_mul]; norm_num

/-- The `f32` pattern `0x479C4000` denotes `80000`. -/
theorem ofBits_f32_80000 : Ideal.ofBits .f32 0x479C4000#32 = ((80000 : ℝ) : EReal) := by
  simp [Ideal.ofBits, Ideal.ieee, -EReal.coe_mul]; norm_num

/-- The `f32` pattern `0x44FA0000` denotes `2000`. -/
theorem ofBits_f32_2000 : Ideal.ofBits .f32 0x44FA0000#32 = ((2000 : ℝ) : EReal) := by
  simp [Ideal.ofBits, Ideal.ieee, -EReal.coe_mul]; norm_num

/-- The `f32` pattern `0x3727C5AC` (the `f32` nearest `10⁻⁵`) denotes the real `10995116 · 2⁻⁴⁰`. -/
theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

/-- The `f32` pattern `0x358637BD` (the `f32` nearest `10⁻⁶`) denotes the real `8796093 · 2⁻⁴³`. -/
theorem ofBits_f32_1em6 :
    Ideal.ofBits .f32 0x358637BD#32 = (((8796093 : ℝ) * (2 : ℝ) ^ (-43 : Int) : ℝ) : EReal) := by
  simp [Ideal.ofBits, Ideal.ieee, -EReal.coe_mul]

/-- The `f32` nearest `10⁻⁵` is real. -/
theorem ofBits_f32_1em5_isReal : IsReal (Ideal.ofBits .f32 0x3727C5AC#32) := by
  rw [ofBits_f32_1em5]; exact IsReal.coe _

/-- The `f32` nearest `10⁻⁵` is positive. -/
theorem ofBits_f32_1em5_pos : 0 < Ideal.ofBits .f32 0x3727C5AC#32 := by
  rw [ofBits_f32_1em5]; exact EReal.coe_pos.mpr (by positivity)

/-- The `f32` nearest `10⁻⁶` is real. -/
theorem ofBits_f32_1em6_isReal : IsReal (Ideal.ofBits .f32 0x358637BD#32) := by
  rw [ofBits_f32_1em6]; exact IsReal.coe _

/-- The `f32` nearest `10⁻⁶` is positive. -/
theorem ofBits_f32_1em6_pos : 0 < Ideal.ofBits .f32 0x358637BD#32 := by
  rw [ofBits_f32_1em6]; exact EReal.coe_pos.mpr (by positivity)

end Cert.Lib
-- ==== Proof.GiniLaw.lean ====
/-
  The two-class Gini impurity, two ways, on the extended reals.

  For a score `s` and the two class weights `c 0`, `c 1` put `a k = s · c k`.  The softmax form is
  `Σ_k (1 − p_k²)` with `p_k = e^{a_k − M} / Σ_j e^{a_j − M}`, `M` the running maximum of the `a_k` (started at −∞);
  the hyperbolic form is `3/2 − 1/2 · tanh²((s · (c 1 − c 0)) · 1/2)`.  Because `p_0 + p_1 = 1`,
  `Σ_k (1 − p_k²) = 1 + 2 p_0 p_1`, and `p_0 p_1 = (1 − tanh²((a_1 − a_0)/2)) / 4`: the two forms agree whenever
  `s`, `c 0`, `c 1` are real numbers (the shift `M` cancels, whatever real it is).  At an infinite weight the
  product `s · (c 1 − c 0)` no longer distributes, which is why the weights are asked to be finite.
-/
import Idealize.ShloMosaic.PureOps.Ideal
import Idealize.ShloMosaic.PureOps.Ideal.Laws
import proofs.«406894_j34832184770666_3_alg».proof.Proof.LibIdealReal

noncomputable section

namespace Cert.DecisionNode

open Idealize.ShloMosaic

/-! ## The float patterns the two programs spell, as extended reals -/

theorem ofBits_half : Ideal.ofBits .f32 0x3F000000#32 = ((1 / 2 : ℝ) : EReal) := by
  simp [Ideal.ofBits, Ideal.ieee, -EReal.coe_mul]; norm_num

theorem ofBits_three_halves : Ideal.ofBits .f32 0x3FC00000#32 = ((3 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem ofBits_pos_inf : Ideal.ofBits .f32 0x7F800000#32 = (⊤ : EReal) := by
  simp [Ideal.ofBits, Ideal.ieee]

/-! ## The two forms -/

/-- The softmax form, spelled with the reference's own constants: the maximum and both sums start from their
    neutral patterns, the quotient is the host's. -/
def giniSoftmax (s : EReal) (c : Fin 2 → EReal) : EReal :=
  let a : Fin 2 → EReal := fun k => s * c k
  let M : EReal := max (Ideal.ofBits .f32 0xFF800000#32) ((Finset.univ : Finset (Fin 2)).fold max (Ideal.ofBits .f32 0xFF800000#32) a)
  let e : Fin 2 → EReal := fun k => Ideal.exp (a k - M)
  let Z : EReal := Ideal.ofBits .f32 0x00000000#32 + ∑ k : Fin 2, e k
  Ideal.ofBits .f32 0x00000000#32 + ∑ k : Fin 2, (Ideal.ofBits .f32 0x3F800000#32 - Ideal.div (e k) Z * Ideal.div (e k) Z)

/-- The hyperbolic form from the score and the DIFFERENCE `d` of the two class weights, spelled with the kernel's
    constants: `3/2 − 1/2 · tanh²(s · d · 1/2)`. -/
def giniOfDiff (s d : EReal) : EReal :=
  Ideal.ofBits .f32 0x3FC00000#32
    - Ideal.ofBits .f32 0x3F000000#32
      * (Ideal.tanh (s * d * Ideal.ofBits .f32 0x3F000000#32) * Ideal.tanh (s * d * Ideal.ofBits .f32 0x3F000000#32))

/-- The hyperbolic form from the score and the two class weights. -/
def giniTanh (s c0 c1 : EReal) : EReal := giniOfDiff s (c1 - c0)

/-! ## The law over the reals -/

/-- `tanh` of half a difference, by the two exponentials. -/
theorem tanh_half_sub (a b : ℝ) : Real.tanh ((b - a) / 2) = (Real.exp b - Real.exp a) / (Real.exp b + Real.exp a) := by
  have ha : Real.exp a = Real.exp (a / 2) * Real.exp (a / 2) := by rw [← Real.exp_add]; ring_nf
  have hb : Real.exp b = Real.exp (b / 2) * Real.exp (b / 2) := by rw [← Real.exp_add]; ring_nf
  have h1 : Real.exp ((b - a) / 2) = Real.exp (b / 2) / Real.exp (a / 2) := by rw [← Real.exp_sub]; ring_nf
  have h2 : Real.exp (-((b - a) / 2)) = Real.exp (a / 2) / Real.exp (b / 2) := by rw [← Real.exp_sub]; ring_nf
  have hp := Real.exp_pos (a / 2)
  have hq := Real.exp_pos (b / 2)
  rw [Real.tanh_eq_sinh_div_cosh, Real.sinh_eq, Real.cosh_eq, h1, h2, ha, hb]
  field_simp

/-- The Gini identity for two positive weights `u`, `v` (the shifted exponentials): with `p = u/(u+v)`, `q = v/(u+v)`,
    `(1 − p²) + (1 − q²) = 3/2 − 1/2 · ((v − u)/(v + u))²`. -/
theorem gini_of_weights (u v : ℝ) (hu : 0 < u) (hv : 0 < v) :
    (1 - u * (1 / (u + v)) * (u * (1 / (u + v)))) + (1 - v * (1 / (u + v)) * (v * (1 / (u + v))))
      = 3 / 2 - 1 / 2 * ((v - u) / (v + u) * ((v - u) / (v + u))) := by
  have h : u + v ≠ 0 := by positivity
  have h' : v + u ≠ 0 := by positivity
  field_simp
  ring

/-! ## The law on the extended reals, at real arguments -/

/-- A fold over the two classes, written out. -/
theorem fold_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = {0, 1} from by decide, Finset.fold_insert (by decide), Finset.fold_singleton]

/-- At a real score and real class weights the softmax form IS the hyperbolic form: the running maximum is a real
    number `M`, every exponential a positive real, so the quotients are real quotients, and the identity is
    `gini_of_weights` with `tanh_half_sub` at the shifted exponents `s·c₀ − M`, `s·c₁ − M`. -/
theorem giniSoftmax_eq_giniTanh (s c0 c1 : ℝ) (c : Fin 2 → EReal) (h0 : c 0 = c0) (h1 : c 1 = c1) :
    giniSoftmax (s : EReal) c = giniTanh (s : EReal) (c0 : EReal) (c1 : EReal) := by
  unfold giniSoftmax giniTanh giniOfDiff
  simp only [fold_fin2, Fin.sum_univ_two, h0, h1, ofBits_neg_inf, Ideal.ofBits_zero_f32, ofBits_one, ofBits_half,
    ofBits_three_halves, zero_add]
  obtain ⟨M, hM⟩ : ∃ M : ℝ, max ⊥ (max ((s : EReal) * c0) (max ((s : EReal) * c1) ⊥)) = (M : EReal) := by
    rw [max_bot_left, max_bot_right, ← EReal.coe_mul, ← EReal.coe_mul, ← Cert.Lib.coe_max]; exact ⟨_, rfl⟩
  rw [hM]
  simp only [← EReal.coe_mul, ← EReal.coe_sub, Ideal.exp_coe, ← EReal.coe_add]
  have hZ : Real.exp (s * c0 - M) + Real.exp (s * c1 - M) ≠ 0 := by positivity
  rw [Ideal.div_coe hZ, Ideal.div_coe hZ]
  simp only [← EReal.coe_mul, ← EReal.coe_sub, ← EReal.coe_add, Ideal.tanh_coe]
  congr 1
  rw [gini_of_weights _ _ (Real.exp_pos _) (Real.exp_pos _)]
  have e : s * (c1 - c0) * (1 / 2) = ((s * c1 - M) - (s * c0 - M)) / 2 := by ring
  rw [e, tanh_half_sub]

/-- An extended real between two real numbers is real. -/
theorem isReal_of_between {y : EReal} {a b : ℝ} (ha : (a : EReal) ≤ y) (hb : y ≤ (b : EReal)) : Cert.Lib.IsReal y := by
  induction y using EReal.rec with
  | bot => exact absurd (le_bot_iff.mp ha) (EReal.coe_ne_bot a)
  | coe r => exact ⟨r, rfl⟩
  | top => exact absurd (top_le_iff.mp hb) (EReal.coe_ne_top b)

end Cert.DecisionNode

end
-- ==== Proof.Spec.lean ====
/-
  What the decision node computes, index by index, as functions of the four argument arrays:
  `x` [1024 samples, 128 trees, 784 features], `w` [256 leaves, 784 features], `bias` [256 leaves] and the
  class weights `contrib` [128 trees, 256 leaves, 2 classes].

  The score of sample `n`, tree `t`, leaf `l` is the linear form `Σ_k x[n,t,k] · w[l,k] + bias[l]` clipped to
  [−1, 1]; the first output is the array of scores. The second output is, at (n, t, l), the Gini impurity of the
  two-class softmax of `score · contrib[t,l,·]`, written either in its hyperbolic form (`ginis`) or in its
  softmax form (`ginisSoftmax`). A clipped value lies between −1 and 1, so it is a real number whatever the
  linear form is; with real class weights the two forms agree (GiniLaw).
-/
import proofs.«406894_j34832184770666_3_alg».proof.Proof.GiniLaw
import Idealize.ShloMosaic.Lib.ValueIdx

noncomputable section

namespace Cert.DecisionNode

open Idealize.ShloMosaic Idealize.ShloMosaic.ValueIdx

abbrev Sx : Shape := ⟨3, ![1024, 128, 784]⟩
abbrev Sw : Shape := ⟨2, ![256, 784]⟩
abbrev Sb : Shape := ⟨1, ![256]⟩
abbrev Sc : Shape := ⟨3, ![128, 256, 2]⟩
abbrev So : Shape := ⟨3, ![1024, 128, 256]⟩

/-- The linear form of sample `n`, tree `t`, leaf `l`, clipped below at the pattern of −1 and above at that of 1. -/
def score (x : FVec Ideal Sx .f32) (w : FVec Ideal Sw .f32) (bias : FVec Ideal Sb .f32)
    (n : Fin 1024) (t : Fin 128) (l : Fin 256) : EReal :=
  min (Ideal.ofBits .f32 0x3F800000#32)
    (max (Ideal.ofBits .f32 0xBF800000#32) ((∑ k : Fin 784, x (ix3 n t k) * w (ix2 l k)) + bias (ix1 l)))

/-- The first output: every score. -/
def scores (x : FVec Ideal Sx .f32) (w : FVec Ideal Sw .f32) (bias : FVec Ideal Sb .f32) : FVec Ideal So .f32 :=
  fun i => score x w bias (i 0) (i 1) (i 2)

/-- The second output in its hyperbolic form. -/
def ginis (x : FVec Ideal Sx .f32) (w : FVec Ideal Sw .f32) (bias : FVec Ideal Sb .f32) (contrib : FVec Ideal Sc .f32) :
    FVec Ideal So .f32 :=
  fun i => giniTanh (score x w bias (i 0) (i 1) (i 2)) (contrib (ix3 (i 1) (i 2) (0 : Fin 2))) (contrib (ix3 (i 1) (i 2) (1 : Fin 2)))

/-- The second output in its softmax form. -/
def ginisSoftmax (x : FVec Ideal Sx .f32) (w : FVec Ideal Sw .f32) (bias : FVec Ideal Sb .f32) (contrib : FVec Ideal Sc .f32) :
    FVec Ideal So .f32 :=
  fun i => giniSoftmax (score x w bias (i 0) (i 1) (i 2)) (fun k : Fin 2 => contrib (ix3 (i 1) (i 2) k))

/-- A score is a real number: it lies between −1 and 1. -/
theorem score_isReal (x : FVec Ideal Sx .f32) (w : FVec Ideal Sw .f32) (bias : FVec Ideal Sb .f32)
    (n : Fin 1024) (t : Fin 128) (l : Fin 256) : Cert.Lib.IsReal (score x w bias n t l) := by
  unfold score
  rw [ofBits_one, ofBits_neg_one]
  refine isReal_of_between (a := -1) (b := 1) (le_min ?_ (le_max_left _ _)) (min_le_left _ _)
  exact EReal.coe_le_coe_iff.mpr (by norm_num)

/-- With real class weights the softmax form of the second output is its hyperbolic form. -/
theorem ginisSoftmax_eq_ginis (x : FVec Ideal Sx .f32) (w : FVec Ideal Sw .f32) (bias : FVec Ideal Sb .f32)
    (contrib : FVec Ideal Sc .f32) (hc : ∀ j, Cert.Lib.IsReal (contrib j)) :
    ginisSoftmax x w bias contrib = ginis x w bias contrib := by
  funext i
  obtain ⟨s, hs⟩ := score_isReal x w bias (i 0) (i 1) (i 2)
  obtain ⟨c0, h0⟩ := hc (ix3 (i 1) (i 2) (0 : Fin 2))
  obtain ⟨c1, h1⟩ := hc (ix3 (i 1) (i 2) (1 : Fin 2))
  unfold ginisSoftmax ginis
  rw [hs, h0, h1]
  exact giniSoftmax_eq_giniTanh s c0 c1 _ h0 h1

end Cert.DecisionNode

end
-- ==== Proof.KernelBlock.lean ====
/-
  The kernel's body at one grid point, read at an index of its [16, 128, 256] output blocks.

  The first output block is, at (p, q, r), the row-(p, q) by leaf-r entry of the block's product of the loaded
  [16·128, 784] samples with the [784, 256] weights, plus the bias row, clipped: `blockScore`. The product is a
  sum over the 784 features of the two operands at (row, k) and (k, r) — the dot's index maps, axis by axis, as the
  reference's own contraction is read; a change of float format is the identity on the extended reals, and the
  reshapes keep the row-major position, row = p·128 + q.
  The second output block is stored in two halves of eight samples; on either half the stored value at (a, q, r)
  is the hyperbolic Gini form of the score of sample a (or a + 8) and the loaded weight difference at (q, r).
-/
import proofs.«406894_j34832184770666_3_alg».proof.Proof.Gen.KernelIdeal.Skeleton
import proofs.«406894_j34832184770666_3_alg».proof.Proof.Spec
import Idealize.ShloMosaic.Lib.Pipeline.Value
import Idealize.ShloMosaic.Lib.ValueIdx
import Idealize.ShloMosaic.PureOps.Ideal.Laws

noncomputable section

namespace Cert.DecisionNode.Kernel

open Cert.KernelIdeal Cert.KernelIdeal.Gen Idealize.ShloMosaic Idealize.ShloMosaic.ValueIdx
open Cert.DecisionNode

/-- The product's left operand is read at the output's row -/
theorem lhs_rowDot_0 (i : S2048x256.Idx) (q : dot_S2048x784_S784x256_S2048x256_1_0_0_1_n_n.contr.Idx) :
    (dot_S2048x784_S784x256_S2048x256_1_0_0_1_n_n.lhsIdx i q 0).val = (i 0).val := by
  unfold DotDims.lhsIdx
  rw [dif_neg (show ¬(0 : Fin S2048x784.rank) ∈ dot_S2048x784_S784x256_S2048x256_1_0_0_1_n_n.lhsBatch by decide), dif_pos (show (0 : Fin S2048x784.rank) ∈ dot_S2048x784_S784x256_S2048x256_1_0_0_1_n_n.lhsNonContracting by decide)]
  rfl
/-- and at the contraction index; -/
theorem lhs_rowDot_1 (i : S2048x256.Idx) (q : dot_S2048x784_S784x256_S2048x256_1_0_0_1_n_n.contr.Idx) :
    (dot_S2048x784_S784x256_S2048x256_1_0_0_1_n_n.lhsIdx i q 1).val = (q ⟨0, by decide⟩).val :=
  dot_S2048x784_S784x256_S2048x256_1_0_0_1_n_n.lhsIdx_val_of_single rfl i q
/-- its right operand at the contraction index -/
theorem rhs_rowDot_0 (i : S2048x256.Idx) (q : dot_S2048x784_S784x256_S2048x256_1_0_0_1_n_n.contr.Idx) :
    (dot_S2048x784_S784x256_S2048x256_1_0_0_1_n_n.rhsIdx i q 0).val = (q ⟨0, by decide⟩).val :=
  dot_S2048x784_S784x256_S2048x256_1_0_0_1_n_n.rhsIdx_val_of_single rfl i q
/-- and at the output's column. -/
theorem rhs_rowDot_1 (i : S2048x256.Idx) (q : dot_S2048x784_S784x256_S2048x256_1_0_0_1_n_n.contr.Idx) :
    (dot_S2048x784_S784x256_S2048x256_1_0_0_1_n_n.rhsIdx i q 1).val = (i 1).val := by
  unfold DotDims.rhsIdx
  rw [dif_neg (show ¬(1 : Fin S784x256.rank) ∈ dot_S2048x784_S784x256_S2048x256_1_0_0_1_n_n.rhsBatch by decide), dif_pos (show (1 : Fin S784x256.rank) ∈ dot_S2048x784_S784x256_S2048x256_1_0_0_1_n_n.rhsNonContracting by decide)]
  rfl

/-- So the [2048, 784] × [784, 256] product into a zero accumulator is, at (ρ, r), the sum over the 784 features of
    `a (ρ, k) · b (k, r)`. -/
theorem rowDot_apply (a : FVec Ideal S2048x784 .bf16) (b : FVec Ideal S784x256 .bf16) (ρ : Fin 2048) (r : Fin 256) :
    matmul dot_S2048x784_S784x256_S2048x256_1_0_0_1_n_n none a b (constant S2048x256 .f32 0x00000000#32) (ix2 ρ r)
      = ∑ k : Fin 784, a (ix2 ρ k) * b (ix2 k r) := by
  simp only [matmul]
  rw [Ideal.matmul_constant_zero_apply, ← Equiv.sum_comp (ValueIdx.contrEquiv1 dot_S2048x784_S784x256_S2048x256_1_0_0_1_n_n 784 rfl rfl).symm]
  refine Finset.sum_congr rfl fun k _ => ?_
  have hk := ValueIdx.contrEquiv1_symm_val dot_S2048x784_S784x256_S2048x256_1_0_0_1_n_n 784 rfl rfl k
  have el : dot_S2048x784_S784x256_S2048x256_1_0_0_1_n_n.lhsIdx (ix2 ρ r) ((ValueIdx.contrEquiv1 dot_S2048x784_S784x256_S2048x256_1_0_0_1_n_n 784 rfl rfl).symm k) = ix2 ρ k := funext fun a => Fin.ext (by
    match a with
    | ⟨0, _⟩ => exact lhs_rowDot_0 _ _
    | ⟨1, _⟩ => exact (lhs_rowDot_1 _ _).trans hk)
  have er : dot_S2048x784_S784x256_S2048x256_1_0_0_1_n_n.rhsIdx (ix2 ρ r) ((ValueIdx.contrEquiv1 dot_S2048x784_S784x256_S2048x256_1_0_0_1_n_n 784 rfl rfl).symm k) = ix2 k r := funext fun a => Fin.ext (by
    match a with
    | ⟨0, _⟩ => exact (rhs_rowDot_0 _ _).trans hk
    | ⟨1, _⟩ => exact rhs_rowDot_1 _ _)
  rw [el, er]

/-- At the ideal values a change of float format is the identity. -/
theorem truncf_ideal {s : Shape} {φ : FTy} (ψ : FTy) (x : FVec Ideal s φ) (h : ψ.bits < φ.bits) :
    (truncf ψ x h : FVec Ideal s ψ) = (x : s.Idx → EReal) := rfl

/-- The score at entry (p, q, r) of a block: samples' row (p, q) against the weights' column r, plus the bias row, clipped. -/
def blockScore (v0 : FVec Ideal S16x128x784 .f32) (v3 : FVec Ideal S784x256 .bf16) (v6 : FVec Ideal S1x256 .f32)
    (p : Fin 16) (q : Fin 128) (r : Fin 256) : EReal :=
  min (Ideal.ofBits .f32 0x3F800000#32)
    (max (Ideal.ofBits .f32 0xBF800000#32) ((∑ k : Fin 784, v0 (ix3 p q k) * v3 (ix2 k r)) + v6 (ix2 (0 : Fin 1) r)))

/-- The first stored value at (p, q, r) is the block score: the [16, 128, 256] reshape of the [2048, 256] clipped
    product reads row p·128 + q, whose sample row is (p, q). -/
theorem pay2_apply (v0 : FVec Ideal S16x128x784 .f32) (v3 : FVec Ideal S784x256 .bf16) (v6 : FVec Ideal S1x256 .f32)
    (p : Fin 16) (q : Fin 128) (r : Fin 256) :
    k0_pay2 (F := Ideal) v0 v3 v6 (ix3 p q r) = blockScore v0 v3 v6 p q r := by
  simp only [k0_pay2, truncf_ideal]
  have hρ : p.val * 128 + q.val < 2048 := by have := p.isLt; have := q.isLt; omega
  refine (shapeCast_apply _ shapeCasts_S2048x256_S16x128x256 (ix3 p q r) (ix2 (⟨p.val * 128 + q.val, hρ⟩ : Fin 2048) r) ?_).trans ?_
  · rw [Shape.rowMajor_val_two, Shape.rowMajor_val_three]; rfl
  have hm := rowDot_apply (shapeCast S2048x784 v0 shapeCasts_S16x128x784_S2048x784)
    (shapeCast S784x256 v3 shapeCasts_S784x256_S784x256) (⟨p.val * 128 + q.val, hρ⟩ : Fin 2048) r
  have hb : broadcastTo S2048x256 (shapeCast S1x256 v6 shapeCasts_S1x256_S1x256) broadcasts_S1x256_S2048x256
      (ix2 (⟨p.val * 128 + q.val, hρ⟩ : Fin 2048) r) = v6 (ix2 (0 : Fin 1) r) := by
    rw [shapeCast_self]
    exact broadcastTo_apply v6 broadcasts_S1x256_S2048x256 _ (ix2 (0 : Fin 1) r) (fun a => by
      match a with
      | ⟨0, _⟩ => show (0 : Nat) = if (1 : Nat) = 1 then 0 else _; rw [if_pos rfl]
      | ⟨1, _⟩ => show r.val = if (256 : Nat) = 1 then 0 else r.val; rw [if_neg (by decide)])
  have hx : ∀ k : Fin 784, shapeCast S2048x784 v0 shapeCasts_S16x128x784_S2048x784
      (ix2 (⟨p.val * 128 + q.val, hρ⟩ : Fin 2048) k) = v0 (ix3 p q k) := fun k =>
    shapeCast_apply v0 shapeCasts_S16x128x784_S2048x784 (ix2 (⟨p.val * 128 + q.val, hρ⟩ : Fin 2048) k) (ix3 p q k) (by
      rw [Shape.rowMajor_val_two, Shape.rowMajor_val_three]; rfl)
  simp only [minimumf, maximumf, addf, broadcast]
  rw [hm, hb]
  simp only [hx, shapeCast_self]
  rfl

/-- The weight difference broadcast over the eight samples of a half reads, at (a, q, r), the loaded difference at (q, r). -/
theorem pay3_apply (v16 : FVec Ideal S128x256 .f32) (a : Fin 8) (q : Fin 128) (r : Fin 256) :
    k0_pay3 (F := Ideal) v16 (ix3 a q r) = v16 (ix2 q r) := by
  simp only [k0_pay3, shapeCast_self]
  refine (broadcastTo_apply _ broadcasts_S1x128x256_S8x128x256 (ix3 a q r) (ix3 (0 : Fin 1) q r) (fun b => by
    match b with
    | ⟨0, _⟩ => show (0 : Nat) = if (1 : Nat) = 1 then 0 else _; rw [if_pos rfl]
    | ⟨1, _⟩ => show q.val = if (128 : Nat) = 1 then 0 else q.val; rw [if_neg (by decide)]
    | ⟨2, _⟩ => show r.val = if (256 : Nat) = 1 then 0 else r.val; rw [if_neg (by decide)])).trans ?_
  exact shapeCast_apply v16 shapeCasts_S128x256_S1x128x256 (ix3 (0 : Fin 1) q r) (ix2 q r) (by
    rw [Shape.rowMajor_val_two, Shape.rowMajor_val_three]
    show q.val * 256 + r.val = (0 * 128 + q.val) * 256 + r.val
    omega)

/-- The value stored in the first half at (a, q, r): the hyperbolic Gini form of sample a's score. -/
theorem pay4_apply (v0 : FVec Ideal S16x128x784 .f32) (v3 : FVec Ideal S784x256 .bf16) (v6 : FVec Ideal S1x256 .f32)
    (v16 : FVec Ideal S128x256 .f32) (a : Fin 8) (q : Fin 128) (r : Fin 256) :
    k0_pay4 (F := Ideal) v0 v3 v6 v16 (ix3 a q r)
      = giniOfDiff (blockScore v0 v3 v6 (⟨a.val, by have := a.isLt; omega⟩ : Fin 16) q r) (v16 (ix2 q r)) := by
  simp only [k0_pay4, subf, mulf, tanh, broadcast]
  rw [pay3_apply, extractStridedSlice_apply ![0, 0, 0] (k0_pay2 (F := Ideal) v0 v3 v6) slices_S16x128x256_o0_0_0_S8x128x256
    (ix3 a q r) (ix3 (⟨a.val, by have := a.isLt; omega⟩ : Fin 16) q r) (fun b => by
      match b with
      | ⟨0, _⟩ => show a.val = 0 + a.val; omega
      | ⟨1, _⟩ => show q.val = 0 + q.val; omega
      | ⟨2, _⟩ => show r.val = 0 + r.val; omega), pay2_apply]
  rfl

/-- The value stored in the second half at (a, q, r): the hyperbolic Gini form of sample (a + 8)'s score. -/
theorem pay1_apply (v0 : FVec Ideal S16x128x784 .f32) (v3 : FVec Ideal S784x256 .bf16) (v6 : FVec Ideal S1x256 .f32)
    (v16 : FVec Ideal S128x256 .f32) (a : Fin 8) (q : Fin 128) (r : Fin 256) :
    k0_pay1 (F := Ideal) (k0_pay5 (F := Ideal) v0 v3 v6 v16) (k0_pay6 (F := Ideal)) (ix3 a q r)
      = giniOfDiff (blockScore v0 v3 v6 (⟨a.val + 8, by have := a.isLt; omega⟩ : Fin 16) q r) (v16 (ix2 q r)) := by
  simp only [k0_pay1, k0_pay5, k0_pay6, subf, mulf, tanh, broadcast]
  rw [pay3_apply, extractStridedSlice_apply ![8, 0, 0] (k0_pay2 (F := Ideal) v0 v3 v6) slices_S16x128x256_o8_0_0_S8x128x256
    (ix3 a q r) (ix3 (⟨a.val + 8, by have := a.isLt; omega⟩ : Fin 16) q r) (fun b => by
      match b with
      | ⟨0, _⟩ => show a.val + 8 = 8 + a.val; omega
      | ⟨1, _⟩ => show q.val = 0 + q.val; omega
      | ⟨2, _⟩ => show r.val = 0 + r.val; omega), pay2_apply]
  rfl

/-! ## The two blocks, and their reading in the arrays' terms -/

/-- The first output block: every score of the block. -/
def blockScores (v0 : FVec Ideal S16x128x784 .f32) (v3 : FVec Ideal S784x256 .bf16) (v6 : FVec Ideal S1x256 .f32) :
    FVec Ideal S16x128x256 .f32 := fun y => blockScore v0 v3 v6 (y 0) (y 1) (y 2)

/-- The second output block: the hyperbolic Gini form of every score of the block and the weight difference. -/
def blockGinis (v0 : FVec Ideal S16x128x784 .f32) (v3 : FVec Ideal S784x256 .bf16) (v6 : FVec Ideal S1x256 .f32)
    (v16 : FVec Ideal S128x256 .f32) : FVec Ideal S16x128x256 .f32 :=
  fun y => giniOfDiff (blockScore v0 v3 v6 (y 0) (y 1) (y 2)) (v16 (ix2 (y 1) (y 2)))

/-- A block score is the array's score of sample `n` when the loaded samples' row is sample `n`'s, the loaded weights
    are the transposed weight matrix and the loaded bias row is the bias. -/
theorem blockScore_eq_score (x : FVec Ideal Sx .f32) (w : FVec Ideal Sw .f32) (bias : FVec Ideal Sb .f32)
    (v0 : FVec Ideal S16x128x784 .f32) (v3 : FVec Ideal S784x256 .bf16) (v6 : FVec Ideal S1x256 .f32)
    (p : Fin 16) (q : Fin 128) (r : Fin 256) (n : Fin 1024)
    (h0 : ∀ k : Fin 784, v0 (ix3 p q k) = x (ix3 n q k)) (h3 : ∀ k : Fin 784, v3 (ix2 k r) = w (ix2 r k))
    (h6 : v6 (ix2 (0 : Fin 1) r) = bias (ix1 r)) :
    blockScore v0 v3 v6 p q r = score x w bias n q r := by
  unfold blockScore score
  simp only [h0, h3, h6]

end Cert.DecisionNode.Kernel

end
-- ==== Proof.KernelOut.lean ====
/-
  What the body leaves in its two output buffers, as functions of the four loaded blocks: the first buffer is
  stored whole, so it holds the block of scores; the second is stored in two halves of eight samples each, which
  tile it, and on either half the stored value is the block of Gini values at the half's own rows — so the
  buffer holds the block of Gini values, whichever half an index lies in.
-/
import proofs.«406894_j34832184770666_3_alg».proof.Proof.Gen.KernelIdeal.Frame
import proofs.«406894_j34832184770666_3_alg».proof.Proof.KernelBlock

set_option maxRecDepth 16384

noncomputable section

namespace Cert.DecisionNode.Kernel

open Cert.KernelIdeal Cert.KernelIdeal.Gen Idealize.ShloMosaic Idealize.ShloMosaic.ValueIdx
open Cert.DecisionNode

theorem hz3 : (![0, 0, 0] : Fin 3 → Nat) = fun _ => 0 := funext fun a => by fin_cases a <;> rfl
theorem hz2 : (![0, 0] : Fin 2 → Nat) = fun _ => 0 := funext fun a => by fin_cases a <;> rfl

/-- The first output buffer, stored whole, holds the block of scores. -/
theorem out4_eq (x0 : Vec Ideal S16x128x784 .f32) (x1 : Vec Ideal S784x256 .bf16) (x2 : Vec Ideal S1x256 .f32) (x3 : Vec Ideal S128x256 .f32) :
    out0_4 (F := Ideal) x0 x1 x2 x3 = blockScores x0 x1 x2 := by
  unfold out0_4
  rw [View.canon_unit_zero hz3]
  simp only [View.ld_unit_zero (S := S16x128x784) hz3, View.ld_unit_zero (S := S784x256) hz2, View.ld_unit_zero (S := S1x256) hz2]
  funext y
  obtain ⟨p, q, r, rfl⟩ : ∃ (p : Fin 16) (q : Fin 128) (r : Fin 256), y = ix3 p q r := ⟨y 0, y 1, y 2, eq_ix3 y⟩
  exact pay2_apply x0 x1 x2 p q r

/-- The second output buffer, stored as two halves that tile it, holds the block of Gini values: each half's stored
    value at its local index is the block function at the index it lands on. -/
theorem out5_eq (x0 : Vec Ideal S16x128x784 .f32) (x1 : Vec Ideal S784x256 .bf16) (x2 : Vec Ideal S1x256 .f32) (x3 : Vec Ideal S128x256 .f32) :
    out0_5 (F := Ideal) x0 x1 x2 x3 = blockGinis x0 x1 x2 x3 := by
  unfold out0_5
  simp only [View.ld_unit_zero (S := S16x128x784) hz3, View.ld_unit_zero (S := S784x256) hz2, View.ld_unit_zero (S := S1x256) hz2, View.ld_unit_zero (S := S128x256) hz2]
  funext y
  refine View.canon_apply_of_pieces (Val := Elt Ideal) (blockGinis x0 x1 x2 x3) _ ?_ y (cover0_5 _ _ y)
  intro pc hpc x
  simp only [List.mem_cons, List.not_mem_nil, or_false] at hpc
  rcases hpc with rfl | rfl
  · obtain ⟨a, q, r, rfl⟩ : ∃ (a : Fin 8) (q : Fin 128) (r : Fin 256), x = ix3 a q r := ⟨x 0, x 1, x 2, eq_ix3 x⟩
    have he : r0_6.emb (ix3 a q r) = ix3 (⟨a.val + 8, by have := a.isLt; omega⟩ : Fin 16) q r :=
      funext fun b => Fin.ext (by
        match b with
        | ⟨0, _⟩ => show 8 + 1 * a.val = a.val + 8; omega
        | ⟨1, _⟩ => show 0 + 1 * q.val = q.val; omega
        | ⟨2, _⟩ => show 0 + 1 * r.val = r.val; omega)
    show k0_pay1 (F := Ideal) (k0_pay5 (F := Ideal) x0 x1 x2 x3) (k0_pay6 (F := Ideal)) (ix3 a q r) = blockGinis x0 x1 x2 x3 (r0_6.emb (ix3 a q r))
    rw [he, pay1_apply]
    rfl
  · obtain ⟨a, q, r, rfl⟩ : ∃ (a : Fin 8) (q : Fin 128) (r : Fin 256), x = ix3 a q r := ⟨x 0, x 1, x 2, eq_ix3 x⟩
    have he : r0_5.emb (ix3 a q r) = ix3 (⟨a.val, by have := a.isLt; omega⟩ : Fin 16) q r :=
      funext fun b => Fin.ext (by
        match b with
        | ⟨0, _⟩ => show 0 + 1 * a.val = a.val; omega
        | ⟨1, _⟩ => show 0 + 1 * q.val = q.val; omega
        | ⟨2, _⟩ => show 0 + 1 * r.val = r.val; omega)
    show k0_pay4 (F := Ideal) x0 x1 x2 x3 (ix3 a q r) = blockGinis x0 x1 x2 x3 (r0_5.emb (ix3 a q r))
    rw [he, pay4_apply]
    rfl

end Cert.DecisionNode.Kernel

end
-- ==== Proof.HostPrefix.lean ====
/-
  What the kernel's region finds in the three arrays the host operations make before it: the weight matrix
  transposed (and changed of float format, which is the identity on the extended reals), the bias as a [1, 256] row,
  and the difference of the two class-weight planes, class 1 minus class 0 — each read at an index of the launched
  argument it was made from.
-/
import proofs.«406894_j34832184770666_3_alg».proof.Proof.Gen.KernelIdeal.Frame
import proofs.«406894_j34832184770666_3_alg».proof.Proof.Spec
import Idealize.ShloMosaic.Lib.Pipeline.Value
import Idealize.ShloMosaic.Lib.ValueIdx
import Idealize.ShloMosaic.Lib.StableHlo.Run

noncomputable section

namespace Cert.DecisionNode.Kernel

open Cert.KernelIdeal Cert.KernelIdeal.Gen Idealize.ShloMosaic Idealize.ShloMosaic.TcCoe Idealize.ShloMosaic.ValueIdx Idealize.SL.Sem
open Idealize.ShloMosaic.StableHlo
open Cert.DecisionNode

variable (m : (ℓ : Loc nD τ sig) → Buf (Elt Ideal) ℓ)

/-- The four argument arrays as launched, at their literal types. -/
abbrev samplesArr (c : Dev nD) : FVec Ideal S1024x128x784 .f32 := m ((c : Thread nD τ).loc main_arg0)
abbrev weightsArr (c : Dev nD) : FVec Ideal S256x784 .f32 := m ((c : Thread nD τ).loc main_arg1)
abbrev biasArr (c : Dev nD) : FVec Ideal S256 .f32 := m ((c : Thread nD τ).loc main_arg2)
abbrev classArr (c : Dev nD) : FVec Ideal S128x256x2 .f32 := m ((c : Thread nD τ).loc main_arg3)

/-- The three host-made arrays as terms of the launched arguments. -/
theorem weights_found (c : Dev nD) :
    (V m c main_v1 : S784x256.Idx → EReal)
      = truncf (F := Ideal) .bf16 (transpose S784x256 [1, 0] (weightsArr m c) transposes_S256x784_S784x256_1_0) bitsLt_bf16_f32 := by
  dsimp only [Gen.V, Gen.hostOps0]; after_results

theorem bias_found (c : Dev nD) :
    (V m c main_v2 : S1x256.Idx → EReal)
      = shapeCast S1x256 (biasArr m c) shapeCasts_S256_S1x256 := by
  dsimp only [Gen.V, Gen.hostOps0]; after_results; rfl

theorem diff_found (c : Dev nD) :
    (V m c main_v7 : S128x256.Idx → EReal)
      = subf (F := Ideal) (φ := .f32) (shapeCast S128x256 (extractStridedSlice S128x256x1 ![0, 0, 1] (classArr m c) slices_S128x256x2_S128x256x1_0_0_1) shapeCasts_S128x256x1_S128x256)
          (shapeCast S128x256 (extractStridedSlice S128x256x1 ![0, 0, 0] (classArr m c) slices_S128x256x2_S128x256x1_0_0_0) shapeCasts_S128x256x1_S128x256) := by
  dsimp only [Gen.V, Gen.hostOps0]; after_results; rfl

/-- The weights the region finds are the transposed weight matrix. -/
theorem weights_apply (c : Dev nD) (k : Fin 784) (r : Fin 256) :
    (V m c main_v1 : S784x256.Idx → EReal) (ix2 k r) = (weightsArr m c) (ix2 r k) := by
  rw [weights_found]
  exact transpose_apply [1, 0] _ transposes_S256x784_S784x256_1_0 (ix2 k r) (ix2 r k) (fun b => by
    match b with
    | ⟨0, _⟩ => rfl
    | ⟨1, _⟩ => rfl)

/-- The bias row the region finds is the bias. -/
theorem bias_apply (c : Dev nD) (r : Fin 256) :
    (V m c main_v2 : S1x256.Idx → EReal) (ix2 (0 : Fin 1) r) = (biasArr m c) (ix1 r) := by
  rw [bias_found]
  exact shapeCast_apply _ shapeCasts_S256_S1x256 (ix2 (0 : Fin 1) r) (ix1 r) (by
    rw [Shape.rowMajor_val_one, Shape.rowMajor_val_two]
    show r.val = 0 * 256 + r.val
    omega)

/-- The difference the region finds at (q, r) is class 1's weight minus class 0's. -/
theorem diff_apply (c : Dev nD) (q : Fin 128) (r : Fin 256) :
    (V m c main_v7 : S128x256.Idx → EReal) (ix2 q r)
      = (classArr m c) (ix3 q r (1 : Fin 2))
        - (classArr m c) (ix3 q r (0 : Fin 2)) := by
  rw [diff_found]
  have e1 : shapeCast S128x256 (extractStridedSlice S128x256x1 ![0, 0, 1] (classArr m c) slices_S128x256x2_S128x256x1_0_0_1) shapeCasts_S128x256x1_S128x256 (ix2 q r)
      = (classArr m c) (ix3 q r (1 : Fin 2)) := by
    refine (shapeCast_apply _ shapeCasts_S128x256x1_S128x256 (ix2 q r) (ix3 q r (0 : Fin 1)) (by
      rw [Shape.rowMajor_val_two, Shape.rowMajor_val_three]
      show (q.val * 256 + r.val) * 1 + 0 = q.val * 256 + r.val
      omega)).trans ?_
    exact extractStridedSlice_apply ![0, 0, 1] _ slices_S128x256x2_S128x256x1_0_0_1 (ix3 q r (0 : Fin 1)) (ix3 q r (1 : Fin 2)) (fun b => by
      match b with
      | ⟨0, _⟩ => show q.val = 0 + q.val; omega
      | ⟨1, _⟩ => show r.val = 0 + r.val; omega
      | ⟨2, _⟩ => show 1 = 1 + 0; rfl)
  have e0 : shapeCast S128x256 (extractStridedSlice S128x256x1 ![0, 0, 0] (classArr m c) slices_S128x256x2_S128x256x1_0_0_0) shapeCasts_S128x256x1_S128x256 (ix2 q r)
      = (classArr m c) (ix3 q r (0 : Fin 2)) := by
    refine (shapeCast_apply _ shapeCasts_S128x256x1_S128x256 (ix2 q r) (ix3 q r (0 : Fin 1)) (by
      rw [Shape.rowMajor_val_two, Shape.rowMajor_val_three]
      show (q.val * 256 + r.val) * 1 + 0 = q.val * 256 + r.val
      omega)).trans ?_
    exact extractStridedSlice_apply ![0, 0, 0] _ slices_S128x256x2_S128x256x1_0_0_0 (ix3 q r (0 : Fin 1)) (ix3 q r (0 : Fin 2)) (fun b => by
      match b with
      | ⟨0, _⟩ => show q.val = 0 + q.val; omega
      | ⟨1, _⟩ => show r.val = 0 + r.val; omega
      | ⟨2, _⟩ => show 0 = 0 + 0; rfl)
  show FloatOps.subf _ _ = _
  rw [e1, e0]
  rfl

end Cert.DecisionNode.Kernel

end
-- ==== Proof.KernelArray.lean ====
/-
  From the kernel's blocks to its two result arrays.

  The grid has 64 points; at point `t` the sample window and both output windows sit at block `t` of the sample
  axis (samples 16·t … 16·t + 15), while the weights, the bias row and the class-weight difference are fetched whole.
  So entry (p, q, r) of what point `t` writes back is the whole-array function at sample 16·t + p: the block's score
  is the array's score there (the loaded sample rows are that sample's, the loaded weights the transposed matrix,
  the loaded bias the bias), and likewise the Gini value. Sample `n` lies in the block of point `n / 16`, so the
  blocks tile each result array, which therefore ends holding the whole-array function.
-/
import proofs.«406894_j34832184770666_3_alg».proof.Proof.Gen.KernelIdeal.Value
import proofs.«406894_j34832184770666_3_alg».proof.Proof.KernelOut
import proofs.«406894_j34832184770666_3_alg».proof.Proof.HostPrefix

set_option maxRecDepth 16384

noncomputable section

namespace Cert.DecisionNode.Kernel

open Cert.KernelIdeal Cert.KernelIdeal.Gen Idealize.ShloMosaic Idealize.ShloMosaic.TcCoe Idealize.ShloMosaic.ValueIdx Idealize.SL.Sem
open Idealize.ShloMosaic.Pipeline (Dat)
open Cert.DecisionNode

variable (m : (ℓ : Loc nD τ sig) → Buf (Elt Ideal) ℓ) (ρ : Dev nD → PrngReg)

/-- The index maps over the 64 grid points: the sample window and both output windows at block `t` of the sample axis
    and block 0 elsewhere; the weights, bias and difference windows at block 0. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The loaded sample block at (p, q, k) is sample 16·t + p of the launched array. -/
theorem samples_block (c : Dev nD) (t : Fin cfg0.N) (p : Fin 16) (q : Fin 128) (k : Fin 784) (n : Fin 1024)
    (hn : n.val = t.val * 16 + p.val) :
    iblk m c 0 t (ix3 p q k) = samplesArr m c (ix3 n q k) := by
  obtain ⟨e0, e1, e2, -⟩ := index_maps t
  refine Eq.trans ?_ (congrFun (V_main_arg0 m c) (ix3 n q k))
  show V m c main_arg0 (((cfg0.win 0).blk t).view.emb (ix3 p q k)) = V m c main_arg0 (ix3 n q k)
  refine congrArg (V m c main_arg0) (funext fun a => Fin.ext ?_)
  match a with
  | ⟨0, _⟩ => show win0_0.index t (0 : Fin 3) * 16 + 1 * p.val = n.val; omega
  | ⟨1, _⟩ => show win0_0.index t (1 : Fin 3) * 128 + 1 * q.val = q.val; omega
  | ⟨2, _⟩ => show win0_0.index t (2 : Fin 3) * 784 + 1 * k.val = k.val; omega

/-- The loaded weights at (k, r) are the launched weight matrix at (r, k). -/
theorem weights_block (c : Dev nD) (t : Fin cfg0.N) (k : Fin 784) (r : Fin 256) :
    iblk m c 1 t (ix2 k r) = weightsArr m c (ix2 r k) := by
  obtain ⟨-, -, -, e0, e1, -⟩ := index_maps t
  refine Eq.trans ?_ (weights_apply m c k r)
  show V m c main_v1 (((cfg0.win 1).blk t).view.emb (ix2 k r)) = V m c main_v1 (ix2 k r)
  refine congrArg (V m c main_v1) (funext fun a => Fin.ext ?_)
  match a with
  | ⟨0, _⟩ => show win0_1.index t (0 : Fin 2) * 784 + 1 * k.val = k.val; omega
  | ⟨1, _⟩ => show win0_1.index t (1 : Fin 2) * 256 + 1 * r.val = r.val; omega

/-- The loaded bias row at (0, r) is the launched bias at r. -/
theorem bias_block (c : Dev nD) (t : Fin cfg0.N) (r : Fin 256) :
    iblk m c 2 t (ix2 (0 : Fin 1) r) = biasArr m c (ix1 r) := by
  obtain ⟨-, -, -, -, -, e0, e1, -⟩ := index_maps t
  refine Eq.trans ?_ (bias_apply m c r)
  show V m c main_v2 (((cfg0.win 2).blk t).view.emb (ix2 (0 : Fin 1) r)) = V m c main_v2 (ix2 (0 : Fin 1) r)
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 256 + 1 * r.val = r.val; omega

/-- The loaded difference at (q, r) is class 1's launched weight minus class 0's. -/
theorem diff_block (c : Dev nD) (t : Fin cfg0.N) (q : Fin 128) (r : Fin 256) :
    iblk m c 3 t (ix2 q r) = classArr m c (ix3 q r (1 : Fin 2)) - classArr m c (ix3 q r (0 : Fin 2)) := by
  obtain ⟨-, -, -, -, -, -, -, e0, e1, -⟩ := index_maps t
  refine Eq.trans ?_ (diff_apply m c q r)
  show V m c main_v7 (((cfg0.win 3).blk t).view.emb (ix2 q r)) = V m c main_v7 (ix2 q r)
  refine congrArg (V m c main_v7) (funext fun a => Fin.ext ?_)
  match a with
  | ⟨0, _⟩ => show win0_3.index t (0 : Fin 2) * 128 + 1 * q.val = q.val; omega
  | ⟨1, _⟩ => show win0_3.index t (1 : Fin 2) * 256 + 1 * r.val = r.val; omega

/-! ## What a point writes back is its block of the whole-array function -/

/-- A grid point is below 64. -/
theorem point_lt (t : Fin cfg0.N) : t.val < 64 := Nat.lt_of_lt_of_eq t.isLt N_0

/-- The array index under entry (p, q, r) of point `t`'s output block: sample 16·t + p. -/
theorem out4_emb (t : Fin cfg0.N) (p : Fin 16) (q : Fin 128) (r : Fin 256) (n : Fin 1024) (hn : n.val = t.val * 16 + p.val) :
    ((cfg0.win 4).blk t).view.emb (ix3 p q r) = ix3 n q r := by
  obtain ⟨-, -, -, -, -, -, -, -, -, e0, e1, e2, -⟩ := index_maps t
  refine funext fun a => Fin.ext ?_
  match a with
  | ⟨0, _⟩ => show win0_4.index t (0 : Fin 3) * 16 + 1 * p.val = n.val; omega
  | ⟨1, _⟩ => show win0_4.index t (1 : Fin 3) * 128 + 1 * q.val = q.val; omega
  | ⟨2, _⟩ => show win0_4.index t (2 : Fin 3) * 256 + 1 * r.val = r.val; omega

theorem out5_emb (t : Fin cfg0.N) (p : Fin 16) (q : Fin 128) (r : Fin 256) (n : Fin 1024) (hn : n.val = t.val * 16 + p.val) :
    ((cfg0.win 5).blk t).view.emb (ix3 p q r) = ix3 n q r := by
  obtain ⟨-, -, -, -, -, -, -, -, -, -, -, -, e0, e1, e2⟩ := index_maps t
  refine funext fun a => Fin.ext ?_
  match a with
  | ⟨0, _⟩ => show win0_5.index t (0 : Fin 3) * 16 + 1 * p.val = n.val; omega
  | ⟨1, _⟩ => show win0_5.index t (1 : Fin 3) * 128 + 1 * q.val = q.val; omega
  | ⟨2, _⟩ => show win0_5.index t (2 : Fin 3) * 256 + 1 * r.val = r.val; omega

/-- A block score at point `t` is the array's score of sample 16·t + p. -/
theorem blockScore_at (c : Dev nD) (t : Fin cfg0.N) (p : Fin 16) (q : Fin 128) (r : Fin 256) (n : Fin 1024)
    (hn : n.val = t.val * 16 + p.val) :
    blockScore (iblk m c 0 t) (iblk m c 1 t) (iblk m c 2 t) p q r
      = score (samplesArr m c) (weightsArr m c) (biasArr m c) n q r :=
  blockScore_eq_score (samplesArr m c) (weightsArr m c) (biasArr m c) (iblk m c 0 t) (iblk m c 1 t) (iblk m c 2 t) p q r n
    (fun k => samples_block m c t p q k n hn) (fun k => weights_block m c t k r) (bias_block m c t r)

/-- Point `t` writes back block `t` of the array of scores. -/
theorem flushed4_eq (c : Dev nD) (t : Fin cfg0.N) :
    (dats m 0 c).flushed 4 t
      = ((cfg0.win 4).blk t).view.read (Elt Ideal) (scores (samplesArr m c) (weightsArr m c) (biasArr m c)) := by
  rw [Cert.KernelIdeal.Value.flushed4]
  refine (congrArg ((cfg0.win 4).cut (grid0.coords t)) (out4_eq (iblk m c 0 t) (iblk m c 1 t) (iblk m c 2 t) (iblk m c 3 t))).trans ?_
  funext j
  obtain ⟨p, q, r, rfl⟩ : ∃ (p : Fin 16) (q : Fin 128) (r : Fin 256), j = ix3 p q r := ⟨j 0, j 1, j 2, eq_ix3 j⟩
  have hlt : t.val * 16 + p.val < 1024 := by have := point_lt t; have := p.isLt; omega
  show blockScores (iblk m c 0 t) (iblk m c 1 t) (iblk m c 2 t) (ix3 p q r)
    = scores (samplesArr m c) (weightsArr m c) (biasArr m c) (((cfg0.win 4).blk t).view.emb (ix3 p q r))
  rw [out4_emb t p q r ⟨t.val * 16 + p.val, hlt⟩ rfl]
  exact blockScore_at m c t p q r ⟨t.val * 16 + p.val, hlt⟩ rfl

/-- Point `t` writes back block `t` of the array of Gini values. -/
theorem flushed5_eq (c : Dev nD) (t : Fin cfg0.N) :
    (dats m 0 c).flushed 5 t
      = ((cfg0.win 5).blk t).view.read (Elt Ideal) (ginis (samplesArr m c) (weightsArr m c) (biasArr m c) (classArr m c)) := by
  rw [Cert.KernelIdeal.Value.flushed5]
  refine (congrArg ((cfg0.win 5).cut (grid0.coords t)) (out5_eq (iblk m c 0 t) (iblk m c 1 t) (iblk m c 2 t) (iblk m c 3 t))).trans ?_
  funext j
  obtain ⟨p, q, r, rfl⟩ : ∃ (p : Fin 16) (q : Fin 128) (r : Fin 256), j = ix3 p q r := ⟨j 0, j 1, j 2, eq_ix3 j⟩
  have hlt : t.val * 16 + p.val < 1024 := by have := point_lt t; have := p.isLt; omega
  show blockGinis (iblk m c 0 t) (iblk m c 1 t) (iblk m c 2 t) (iblk m c 3 t) (ix3 p q r)
    = ginis (samplesArr m c) (weightsArr m c) (biasArr m c) (classArr m c) (((cfg0.win 5).blk t).view.emb (ix3 p q r))
  rw [out5_emb t p q r ⟨t.val * 16 + p.val, hlt⟩ rfl]
  show giniOfDiff (blockScore (iblk m c 0 t) (iblk m c 1 t) (iblk m c 2 t) p q r) (iblk m c 3 t (ix2 q r))
    = giniOfDiff (score (samplesArr m c) (weightsArr m c) (biasArr m c) ⟨t.val * 16 + p.val, hlt⟩ q r)
        (classArr m c (ix3 q r (1 : Fin 2)) - classArr m c (ix3 q r (0 : Fin 2)))
  rw [blockScore_at m c t p q r ⟨t.val * 16 + p.val, hlt⟩ rfl, diff_block m c t q r]

/-! ## The blocks tile the arrays -/

/-- An index is in point `t`'s block iff each coordinate is in the block's range on its axis. -/
theorem mem_blk4 (t : Fin cfg0.N) (i : S1024x128x256.Idx) :
    i ∈ ((cfg0.win 4).blk t).view.set ↔ ∀ a : Fin 3, win0_4.index t a * S16x128x256.size a ≤ (i a).val ∧ (i a).val < win0_4.index t a * S16x128x256.size a + S16x128x256.size a := by
  show i ∈ ((View.whole main_v8_0).slice (win0_4.rect t)).set ↔ _
  rw [View.set_slice_whole, Rect.mem_set_unit]
  exact Iff.rfl

theorem mem_blk5 (t : Fin cfg0.N) (i : S1024x128x256.Idx) :
    i ∈ ((cfg0.win 5).blk t).view.set ↔ ∀ a : Fin 3, win0_5.index t a * S16x128x256.size a ≤ (i a).val ∧ (i a).val < win0_5.index t a * S16x128x256.size a + S16x128x256.size a := by
  show i ∈ ((View.whole main_v8_1).slice (win0_5.rect t)).set ↔ _
  rw [View.set_slice_whole, Rect.mem_set_unit]
  exact Iff.rfl

/-- Sample `n` lies in the block of point `n / 16`. -/
theorem cover4 (i : S1024x128x256.Idx) : ∃ t : Fin cfg0.N, (cfg0.win 4).flush t = true ∧ i ∈ ((cfg0.win 4).blk t).view.set := by
  have h0 : (i 0).val < 1024 := (i 0).isLt
  have h1 : (i 1).val < 128 := (i 1).isLt
  have h2 : (i 2).val < 256 := (i 2).isLt
  have hN : cfg0.N = 64 := N_0
  have ht : (i 0).val / 16 < cfg0.N := by rw [hN]; omega
  obtain ⟨-, -, -, -, -, -, -, -, -, e0, e1, e2, -⟩ := index_maps ⟨(i 0).val / 16, ht⟩
  refine ⟨⟨(i 0).val / 16, ht⟩, flush0_4 _, ?_⟩
  rw [mem_blk4]
  intro a
  match a with
  | ⟨0, _⟩ => show win0_4.index ⟨(i 0).val / 16, ht⟩ (0 : Fin 3) * 16 ≤ (i 0).val ∧ (i 0).val < win0_4.index ⟨(i 0).val / 16, ht⟩ (0 : Fin 3) * 16 + 16
              rw [e0]; show (i 0).val / 16 * 16 ≤ (i 0).val ∧ (i 0).val < (i 0).val / 16 * 16 + 16; omega
  | ⟨1, _⟩ => show win0_4.index ⟨(i 0).val / 16, ht⟩ (1 : Fin 3) * 128 ≤ (i 1).val ∧ (i 1).val < win0_4.index ⟨(i 0).val / 16, ht⟩ (1 : Fin 3) * 128 + 128
              rw [e1]; omega
  | ⟨2, _⟩ => show win0_4.index ⟨(i 0).val / 16, ht⟩ (2 : Fin 3) * 256 ≤ (i 2).val ∧ (i 2).val < win0_4.index ⟨(i 0).val / 16, ht⟩ (2 : Fin 3) * 256 + 256
              rw [e2]; omega

theorem cover5 (i : S1024x128x256.Idx) : ∃ t : Fin cfg0.N, (cfg0.win 5).flush t = true ∧ i ∈ ((cfg0.win 5).blk t).view.set := by
  have h0 : (i 0).val < 1024 := (i 0).isLt
  have h1 : (i 1).val < 128 := (i 1).isLt
  have h2 : (i 2).val < 256 := (i 2).isLt
  have hN : cfg0.N = 64 := N_0
  have ht : (i 0).val / 16 < cfg0.N := by rw [hN]; omega
  obtain ⟨-, -, -, -, -, -, -, -, -, -, -, -, e0, e1, e2⟩ := index_maps ⟨(i 0).val / 16, ht⟩
  refine ⟨⟨(i 0).val / 16, ht⟩, flush0_5 _, ?_⟩
  rw [mem_blk5]
  intro a
  match a with
  | ⟨0, _⟩ => show win0_5.index ⟨(i 0).val / 16, ht⟩ (0 : Fin 3) * 16 ≤ (i 0).val ∧ (i 0).val < win0_5.index ⟨(i 0).val / 16, ht⟩ (0 : Fin 3) * 16 + 16
              rw [e0]; show (i 0).val / 16 * 16 ≤ (i 0).val ∧ (i 0).val < (i 0).val / 16 * 16 + 16; omega
  | ⟨1, _⟩ => show win0_5.index ⟨(i 0).val / 16, ht⟩ (1 : Fin 3) * 128 ≤ (i 1).val ∧ (i 1).val < win0_5.index ⟨(i 0).val / 16, ht⟩ (1 : Fin 3) * 128 + 128
              rw [e1]; omega
  | ⟨2, _⟩ => show win0_5.index ⟨(i 0).val / 16, ht⟩ (2 : Fin 3) * 256 ≤ (i 2).val ∧ (i 2).val < win0_5.index ⟨(i 0).val / 16, ht⟩ (2 : Fin 3) * 256 + 256
              rw [e2]; omega

/-! ## The arrays after the run -/

/-- The blocks tile the array, so it ends holding the whole-array function. -/
theorem final4 (c : Dev nD) : (dats m 0 c).arrAt 4 cfg0.N = scores (samplesArr m c) (weightsArr m c) (biasArr m c) :=
  (dats m 0 c).arrAt_eq_of_cover 4 (scores (samplesArr m c) (weightsArr m c) (biasArr m c)) (fun t _ => flushed4_eq m c t) cover4

theorem final5 (c : Dev nD) :
    (dats m 0 c).arrAt 5 cfg0.N = ginis (samplesArr m c) (weightsArr m c) (biasArr m c) (classArr m c) :=
  (dats m 0 c).arrAt_eq_of_cover 5 (ginis (samplesArr m c) (weightsArr m c) (biasArr m c) (classArr m c)) (fun t _ => flushed5_eq m c t) cover5

/-- The kernel's run, read: the first result array ends at the scores of the launched arguments, the second at the
    hyperbolic Gini values, the arguments unchanged. -/
theorem run : θ_run defs (onTc (τ := τ) (main (F := Ideal))) ⟨m, fun _ => 0, ρ⟩ fun r => ∀ c : Dev nD,
      r.2.mem ((c : Thread nD τ).loc main_v8_0) = scores (samplesArr m c) (weightsArr m c) (biasArr m c)
      ∧ r.2.mem ((c : Thread nD τ).loc main_v8_1) = ginis (samplesArr m c) (weightsArr m c) (biasArr m c) (classArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.DecisionNode.Kernel

end
-- ==== Proof.RefValue.lean ====
/-
  The reference, read at an index: its first result is the array of clipped scores, its second the softmax form of
  the Gini impurity — each stage of the computation read at explicit coordinates (n, t, l) and class k. The running maximum over the
  class axis is a fold of `max` over the two classes started at the pattern of −∞.
-/
import proofs.«406894_j34832184770666_3_alg».proof.Proof.Gen.ReferenceIdeal.Read
import proofs.«406894_j34832184770666_3_alg».proof.Proof.Spec

noncomputable section

namespace Cert.DecisionNode.Reference

open Cert.ReferenceIdeal Cert.ReferenceIdeal.Gen Cert.ReferenceIdeal.Read Idealize.ShloMosaic Idealize.ShloMosaic.ValueIdx
open Cert.DecisionNode

/-! ## Indices: the printed index maps at explicit coordinates -/

theorem lidx_eq (n : Fin 1024) (t : Fin 128) (l : Fin 256) (k : Fin 784) : lidx_main_v0 (ix3 n t l) k = ix3 n t k :=
  funext fun a => by match a with | ⟨0, _⟩ => rfl | ⟨1, _⟩ => rfl | ⟨2, _⟩ => rfl
theorem ridx_eq (n : Fin 1024) (t : Fin 128) (l : Fin 256) (k : Fin 784) : ridx_main_v0 (ix3 n t l) k = ix2 l k :=
  funext fun a => by match a with | ⟨0, _⟩ => rfl | ⟨1, _⟩ => rfl
theorem bias_idx_eq (n : Fin 1024) (t : Fin 128) (l : Fin 256) : idx_main_v1 (idx_main_v2 (ix3 n t l)) = ix1 l :=
  funext fun a => by match a with | ⟨0, _⟩ => rfl

/-- The first result is the array of scores. -/
theorem scores_eq (x0 : FVec Ideal S1024x128x784 .f32) (x1 : FVec Ideal S256x784 .f32) (x2 : FVec Ideal S256 .f32) :
    val_main_v4 (F := Ideal) x0 x1 x2 = scores x0 x1 x2 := by
  funext i
  obtain ⟨n, t, l, rfl⟩ : ∃ (n : Fin 1024) (t : Fin 128) (l : Fin 256), i = ix3 n t l := ⟨i 0, i 1, i 2, eq_ix3 i⟩
  rw [val_main_v4_apply, val_main_call0_v4_apply, val_main_call0_v3_apply, val_main_cst_0_apply, val_main_call0_v2_apply,
    val_main_call0_v1_apply, val_main_call0_v0_apply, val_main_cst_apply, val_main_v3_apply, val_main_v0_apply,
    val_main_v2_apply, val_main_v1_apply]
  simp only [lidx_eq, ridx_eq, bias_idx_eq, Ideal.minimumf_def, Ideal.maximumf_def, Ideal.addf_def, Ideal.ofBits_def]
  rfl

/-! ## The class axis -/

theorem out_idx_eq (n : Fin 1024) (t : Fin 128) (l : Fin 256) (k : Fin 2) : idx_main_v24 (ix3 n t l) k = ix4 n t l k :=
  funext fun a => by match a with | ⟨0, _⟩ => rfl | ⟨1, _⟩ => rfl | ⟨2, _⟩ => rfl | ⟨3, _⟩ => rfl
theorem den_sum_idx_eq (n : Fin 1024) (t : Fin 128) (l : Fin 256) (k : Fin 2) : idx_main_v17 (ix3 n t l) k = ix4 n t l k :=
  funext fun a => by match a with | ⟨0, _⟩ => rfl | ⟨1, _⟩ => rfl | ⟨2, _⟩ => rfl | ⟨3, _⟩ => rfl
theorem score_idx_eq (n : Fin 1024) (t : Fin 128) (l : Fin 256) (k : Fin 2) : idx_main_v5 (idx_main_v7 (ix4 n t l k)) = ix3 n t l :=
  funext fun a => by match a with | ⟨0, _⟩ => rfl | ⟨1, _⟩ => rfl | ⟨2, _⟩ => rfl
theorem max_idx_eq (n : Fin 1024) (t : Fin 128) (l : Fin 256) (k : Fin 2) : idx_main_v13 (idx_main_v14 (ix4 n t l k)) = ix3 n t l :=
  funext fun a => by match a with | ⟨0, _⟩ => rfl | ⟨1, _⟩ => rfl | ⟨2, _⟩ => rfl
theorem den_idx_eq (n : Fin 1024) (t : Fin 128) (l : Fin 256) (k : Fin 2) : idx_main_v18 (idx_main_v19 (ix4 n t l k)) = ix3 n t l :=
  funext fun a => by match a with | ⟨0, _⟩ => rfl | ⟨1, _⟩ => rfl | ⟨2, _⟩ => rfl
theorem weight_idx_eq (n : Fin 1024) (t : Fin 128) (l : Fin 256) (k : Fin 2) : idx_main_v6 (idx_main_v8 (ix4 n t l k)) = ix3 t l k :=
  funext fun a => by match a with | ⟨0, _⟩ => rfl | ⟨1, _⟩ => rfl | ⟨2, _⟩ => rfl

theorem reduces_class : S1024x128x256x2.Reduces [3] S1024x128x256 := by decide

/-- The reduced index (n, t, l) with class `k` put back is (n, t, l, k). -/
theorem lift_class (n : Fin 1024) (t : Fin 128) (l : Fin 256) (k : Fin (S1024x128x256x2.size 3)) :
    reduces_class.lift (ix3 n t l) k = ix4 n t l (⟨k.val, k.isLt⟩ : Fin 2) := by
  funext c; apply Fin.ext
  fin_cases c <;> rfl

/-- The running maximum over the class axis: a fold of `max` over the two classes from the pattern of −∞. -/
theorem max_stage_apply (x0 : FVec Ideal S1024x128x784 .f32) (x1 : FVec Ideal S256x784 .f32) (x2 : FVec Ideal S256 .f32)
    (x3 : FVec Ideal S128x256x2 .f32) (n : Fin 1024) (t : Fin 128) (l : Fin 256) :
    val_main_v10 (F := Ideal) x0 x1 x2 x3 (ix3 n t l)
      = (Finset.univ : Finset (Fin 2)).fold max (Ideal.ofBits .f32 0xFF800000#32)
          (fun k => val_main_v9 (F := Ideal) x0 x1 x2 x3 (ix4 n t l k)) := by
  unfold val_main_v10
  rw [Host.reduce_eq_fold_single FloatOps.maximumf _ _ reducesTo_S1024x128x256x2_S1024x128x256_d3 reduces_class h_S_]
  have hf : (val_main_v9 (F := Ideal) x0 x1 x2 x3 ∘ reduces_class.lift (ix3 n t l))
      = fun k : Fin 2 => val_main_v9 (F := Ideal) x0 x1 x2 x3 (ix4 n t l k) :=
    funext fun k => congrArg (val_main_v9 (F := Ideal) x0 x1 x2 x3) (lift_class n t l k)
  rw [hf]
  rfl

/-! ## The stages of the softmax, at explicit coordinates -/

section Stages
variable (x0 : FVec Ideal S1024x128x784 .f32) (x1 : FVec Ideal S256x784 .f32) (x2 : FVec Ideal S256 .f32)
  (x3 : FVec Ideal S128x256x2 .f32) (n : Fin 1024) (t : Fin 128) (l : Fin 256)

/-- The logit of class `k`: the score times the class weight. -/
theorem logit_apply (k : Fin 2) :
    val_main_v9 (F := Ideal) x0 x1 x2 x3 (ix4 n t l k) = scores x0 x1 x2 (ix3 n t l) * x3 (ix3 t l k) := by
  rw [val_main_v9_apply, val_main_v7_apply, val_main_v5_apply, score_idx_eq, val_main_v8_apply, val_main_v6_apply,
    weight_idx_eq, scores_eq]
  rfl

/-- The shift: the maximum, from the pattern of −∞, of the running maximum of the two logits. -/
theorem shift_apply :
    val_main_v12 (F := Ideal) x0 x1 x2 x3 (ix3 n t l)
      = max (Ideal.ofBits .f32 0xFF800000#32) ((Finset.univ : Finset (Fin 2)).fold max (Ideal.ofBits .f32 0xFF800000#32)
          (fun k => val_main_v9 (F := Ideal) x0 x1 x2 x3 (ix4 n t l k))) := by
  rw [val_main_v12_apply, val_main_v11_apply, val_main_cst_2_apply, max_stage_apply]
  rfl

/-- The shifted exponential of class `k`. -/
theorem expo_apply (k : Fin 2) :
    val_main_v16 (F := Ideal) x0 x1 x2 x3 (ix4 n t l k)
      = Ideal.exp (val_main_v9 (F := Ideal) x0 x1 x2 x3 (ix4 n t l k) - val_main_v12 (F := Ideal) x0 x1 x2 x3 (ix3 n t l)) := by
  rw [val_main_v16_apply, val_main_v15_apply, val_main_v14_apply, val_main_v13_apply, max_idx_eq]
  rfl

/-- The normaliser: the sum of the two shifted exponentials, from the pattern of 0. -/
theorem norm_apply :
    val_main_v17 (F := Ideal) x0 x1 x2 x3 (ix3 n t l)
      = Ideal.ofBits .f32 0x00000000#32 + ∑ k : Fin 2, val_main_v16 (F := Ideal) x0 x1 x2 x3 (ix4 n t l k) := by
  rw [val_main_v17_apply]
  simp only [den_sum_idx_eq]
  rfl

/-- The probability of class `k`. -/
theorem prob_apply (k : Fin 2) :
    val_main_v20 (F := Ideal) x0 x1 x2 x3 (ix4 n t l k)
      = Ideal.div (val_main_v16 (F := Ideal) x0 x1 x2 x3 (ix4 n t l k)) (val_main_v17 (F := Ideal) x0 x1 x2 x3 (ix3 n t l)) := by
  rw [val_main_v20_apply, val_main_v19_apply, val_main_v18_apply, den_idx_eq]
  rfl

/-- The impurity: the sum over the classes of one minus the squared probability, from the pattern of 0. -/
theorem impurity_apply :
    val_main_v24 (F := Ideal) x0 x1 x2 x3 (ix3 n t l)
      = Ideal.ofBits .f32 0x00000000#32 + ∑ k : Fin 2, (Ideal.ofBits .f32 0x3F800000#32
          - val_main_v20 (F := Ideal) x0 x1 x2 x3 (ix4 n t l k) * val_main_v20 (F := Ideal) x0 x1 x2 x3 (ix4 n t l k)) := by
  rw [val_main_v24_apply]
  simp only [out_idx_eq, val_main_v23_apply, val_main_v22_apply, val_main_cst_4_apply, val_main_v21_apply]
  rfl

end Stages

/-- The second result is the softmax form of the Gini impurity. -/
theorem ginis_eq (x0 : FVec Ideal S1024x128x784 .f32) (x1 : FVec Ideal S256x784 .f32) (x2 : FVec Ideal S256 .f32)
    (x3 : FVec Ideal S128x256x2 .f32) :
    val_main_v24 (F := Ideal) x0 x1 x2 x3 = ginisSoftmax x0 x1 x2 x3 := by
  funext i
  obtain ⟨n, t, l, rfl⟩ : ∃ (n : Fin 1024) (t : Fin 128) (l : Fin 256), i = ix3 n t l := ⟨i 0, i 1, i 2, eq_ix3 i⟩
  rw [impurity_apply]
  simp only [prob_apply, norm_apply, expo_apply, shift_apply, logit_apply]
  rfl

end Cert.DecisionNode.Reference

end
-- ==== Proof.FiniteWeights.lean ====
/-
  The precondition, read back for the class weights: it is the conjunction of four `all`s, one per argument, of
  "the absolute value is below the pattern of +∞"; its last conjunct, at an index, says `max c (−c) < +∞`, and an
  extended real whose absolute value is below +∞ is a real number.
-/
import proofs.«406894_j34832184770666_3_alg».proof.Pre_finite_inputs
import proofs.«406894_j34832184770666_3_alg».proof.Proof.LibIdealReal
import proofs.«406894_j34832184770666_3_alg».proof.Proof.GiniLaw
import Idealize.ShloMosaic.Lib.ReduceAll
import Idealize.ShloMosaic.Lib.ValueIdx
import Idealize.ShloMosaic.PureOps.Ideal.Laws

noncomputable section

namespace Cert.DecisionNode.Finite

open Idealize.ShloMosaic Cert.Pre_finite_inputs

instance : Subsingleton S_.Idx := ⟨fun a b => funext fun d => d.elim0⟩

/-- Under the precondition every class weight is a real number: its absolute value is below the pattern of +∞. -/
theorem class_weights_real [hP : Cert.Pre_finite_inputs.Facts] (a0 : FVec Ideal S1024x128x784 .f32) (a1 : FVec Ideal S256x784 .f32)
    (a2 : FVec Ideal S256 .f32) (a3 : FVec Ideal S128x256x2 .f32)
    (h : Cert.Pre_finite_inputs.fn (F := Ideal) a0 a1 a2 a3 = fun _ => 1#1) (j : S128x256x2.Idx) : Cert.Lib.IsReal (a3 j) := by
  have h0 := congrFun h ValueIdx.ix0
  dsimp only [Cert.Pre_finite_inputs.fn, Cert.Pre_finite_inputs.fn_part1] at h0
  have h0' : IntOp.andi _ (Host.reduce IntOp.andi
      (cmpf CmpFPredicate.olt (Host.absf a3) (broadcastInDim S128x256x2 ![] Facts.bcast_S_S128x256x2 (constant S_ FTy.f32 0x7F800000#32)))
      (constantI S_ 1 1#1) Facts.reducesTo_S128x256x2_S_d0_1_2 Facts.h_S_ ValueIdx.ix0) = 1#1 := h0
  obtain ⟨-, h3⟩ := IntOp.andi_eq_one.1 h0'
  have hj := Host.reduce_andi_all _ _ _ _ _ h3 j
  have hc : Ideal.cmp .olt (max (a3 j) (-(a3 j))) (Ideal.ofBits .f32 0x7F800000#32) = 1#1 := hj
  rw [Cert.DecisionNode.ofBits_pos_inf] at hc
  refine Cert.Lib.isReal_of_abs_lt_top ?_
  by_contra hn
  simp [Ideal.cmp, hn] at hc

end Cert.DecisionNode.Finite

end
-- ==== Proof.lean ====
/-
  The decision node: a Pallas kernel over 64 blocks of 16 samples against its jnp reference.

  Both programs compute, per sample n, tree t and leaf l, the score
  `s = clip(Σ_k x[n,t,k] · W[l,k] + b[l], −1, 1)` (first result) and the Gini impurity of the two-class softmax
  of `s · contribution[t,l,·]` (second result). The reference forms the softmax (running maximum, shifted
  exponentials, normaliser, quotient) and sums `1 − p²` over the two classes; the kernel uses the closed form
  `3/2 − 1/2 · tanh²(s · (c₁ − c₀) / 2)`, with the difference `c₁ − c₀` made on the host and the weight matrix
  transposed there. On the extended reals a change of float format is the identity and the order of a sum does not
  matter, so the scores agree outright; the two Gini forms agree because the score, being clipped, is a real number
  and the class weights are real by the precondition (at an infinite weight `s · (c₁ − c₀)` would not distribute).

  The kernel's two result arrays are read off its generated frame run block by block (what a grid point writes back
  is its block of the whole-array function; the 64 blocks tile the arrays), the reference's off its generated run one
  operation at a time; the three frames are the generated ones, and the idealization rewrote nothing.
-/
import proofs.«406894_j34832184770666_3_alg».proof.Defs
import proofs.«406894_j34832184770666_3_alg».proof.Proof.Gen.Kernel
import proofs.«406894_j34832184770666_3_alg».proof.Proof.Gen.Kernel.Skeleton
import proofs.«406894_j34832184770666_3_alg».proof.Proof.Gen.Kernel.Launch
import proofs.«406894_j34832184770666_3_alg».proof.Proof.Gen.Kernel.Points
import proofs.«406894_j34832184770666_3_alg».proof.Proof.Gen.Kernel.Frame
import proofs.«406894_j34832184770666_3_alg».proof.Proof.Gen.KernelIdeal
import proofs.«406894_j34832184770666_3_alg».proof.Proof.Gen.KernelIdeal.Skeleton
import proofs.«406894_j34832184770666_3_alg».proof.Proof.Gen.KernelIdeal.Launch
import proofs.«406894_j34832184770666_3_alg».proof.Proof.Gen.KernelIdeal.Points
import proofs.«406894_j34832184770666_3_alg».proof.Proof.Gen.KernelIdeal.Frame
import proofs.«406894_j34832184770666_3_alg».proof.Proof.Gen.ReferenceIdeal
import proofs.«406894_j34832184770666_3_alg».proof.Proof.Gen.Pre_finite_inputs
import proofs.«406894_j34832184770666_3_alg».proof.Proof.Gen.KernelIdeal.Value
import proofs.«406894_j34832184770666_3_alg».proof.Proof.Gen.ReferenceIdeal.Run
import proofs.«406894_j34832184770666_3_alg».proof.Proof.Gen.ReferenceIdeal.Read
import proofs.«406894_j34832184770666_3_alg».proof.Proof.KernelArray
import proofs.«406894_j34832184770666_3_alg».proof.Proof.RefValue
import proofs.«406894_j34832184770666_3_alg».proof.Proof.FiniteWeights
import Idealize.ShloMosaic.Adequacy
import Idealize.ShloMosaic.Init

noncomputable section

namespace Cert.Proof

open Idealize.ShloMosaic Idealize.ShloMosaic.TcCoe Idealize.SL.Sem
open Cert.DecisionNode Cert.DecisionNode.Kernel

/-- Both programs, run from memories that agree on the four arguments, end with the scores in the first result and
    the Gini values in the second: the kernel by its run read block by block, the reference by its run read stage
    by stage, the softmax form turned into the hyperbolic one at the real class weights the precondition gives. -/
theorem algebraic : Cert.algebraic_KernelIdeal_ReferenceIdeal := by
  intro m ρ m' ρ' hpre hagree
  refine ⟨fun c => scores (samplesArr m c) (weightsArr m c) (biasArr m c),
    fun c => ginis (samplesArr m c) (weightsArr m c) (biasArr m c) (classArr m c),
    Cert.DecisionNode.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v4_eq, Cert.DecisionNode.Reference.scores_eq, (hagree c).1, (hagree c).2.1,
      (hagree c).2.2.1]
  · rw [Cert.ReferenceIdeal.Read.val_main_v24_eq, Cert.DecisionNode.Reference.ginis_eq, (hagree c).1, (hagree c).2.1,
      (hagree c).2.2.1, (hagree c).2.2.2]
    exact ginisSoftmax_eq_ginis _ _ _ _ (fun j => Cert.DecisionNode.Finite.class_weights_real _ _ _ _ (hpre c) j)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
